-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S524288x128 : Shape := ⟨2, ![524288, 128]⟩
abbrev S64 : Shape := ⟨1, ![64]⟩
abbrev S128x128 : Shape := ⟨2, ![128, 128]⟩
abbrev S128x64 : Shape := ⟨2, ![128, 64]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S524288x128 : S_.BroadcastsInDim S524288x128 (![] : Fin 0 → Fin S524288x128.rank)
  reducesTo_S524288x128_S_d0_1 : S524288x128.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x64 .f32) (main_arg8 : FVec F S128 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128x64 .f32) (main_arg5 : FVec F S128 .f32) (main_arg6 : FVec F S128x64 .f32) (main_arg7 : FVec F S128x64 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_v33

def fn {F : FTy → Type} [FloatOps F] (main_arg0 : FVec F S8192x128 .f32) (main_arg1 : FVec F S524288x128 .f32) (main_arg2 : FVec F S64 .f32) (main_arg3 : FVec F S128x128 .f32) (main_arg4 : FVec F S128x64 .f32) (main_arg5 : FVec F S128 .f32) (main_arg6 : FVec F S128x64 .f32) (main_arg7 : FVec F S128x64 .f32) (main_arg8 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S8192x128 : Shape := ⟨2, ![8192, 128]⟩
abbrev S524288x128 : Shape := ⟨2, ![524288, 128]⟩
abbrev S64 : Shape := ⟨1, ![64]⟩
abbrev S128x128 : Shape := ⟨2, ![128, 128]⟩
abbrev S128x64 : Shape := ⟨2, ![128, 64]⟩
abbrev S128 : Shape := ⟨1, ![128]⟩
abbrev S_ : Shape := ⟨0, ![]⟩
abbrev S128x1 : Shape := ⟨2, ![128, 1]⟩
abbrev S128x64x2 : Shape := ⟨3, ![128, 64, 2]⟩
abbrev S128x64x1 : Shape := ⟨3, ![128, 64, 1]⟩
abbrev S1x64 : Shape := ⟨2, ![1, 64]⟩
abbrev S64x128 : Shape := ⟨2, ![64, 128]⟩
abbrev S4096x128 : Shape := ⟨2, ![4096, 128]⟩
abbrev S4096x64 : Shape := ⟨2, ![4096, 64]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S1x64x128 : Shape := ⟨3, ![1, 64, 128]⟩
abbrev S256x64x128 : Shape := ⟨3, ![256, 64, 128]⟩
abbrev S256x64x1 : Shape := ⟨3, ![256, 64, 1]⟩

abbrev nBuf : Space → Nat
  | .hbm => 92
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S524288x128, .f32⟩
  | .hbm, ⟨2, _⟩ => ⟨S64, .f32⟩
  | .hbm, ⟨3, _⟩ => ⟨S128x128, .f32⟩
  | .hbm, ⟨4, _⟩ => ⟨S128x64, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S128, .f32⟩
  | .hbm, ⟨9, _⟩ => ⟨S128x128, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x128, .f32⟩
  | .hbm, ⟨18, _⟩ => ⟨S128x128, .f32⟩
  | .hbm, ⟨19, _⟩ => ⟨S128x64x2, .f32⟩
  | .hbm, ⟨20, _⟩ => ⟨S64, .f32⟩
  | .hbm, ⟨21, _⟩ => ⟨S64, .f32⟩
  | .hbm, ⟨22, _⟩ => ⟨S128x64x1, .f32⟩
  | .hbm, ⟨23, _⟩ => ⟨S128x64, .f32⟩
  | .hbm, ⟨24, _⟩ => ⟨S1x64, .f32⟩
  | .hbm, ⟨25, _⟩ => ⟨S128x64, .f32⟩
  | .hbm, ⟨26, _⟩ => ⟨S128x64, .f32⟩
  | .hbm, ⟨27, _⟩ => ⟨S128x64x1, .f32⟩
  | .hbm, ⟨28, _⟩ => ⟨S128x64, .f32⟩
  | .hbm, ⟨29, _⟩ => ⟨S1x64, .f32⟩
  | .hbm, ⟨30, _⟩ => ⟨S128x64, .f32⟩
  | .hbm, ⟨31, _⟩ => ⟨S128x64, .f32⟩
  | .hbm, ⟨32, _⟩ => ⟨S128x64, .f32⟩
  | .hbm, ⟨33, _⟩ => ⟨S128x64x1, .f32⟩
  | .hbm, ⟨34, _⟩ => ⟨S128x64, .f32⟩
  | .hbm, ⟨35, _⟩ => ⟨S1x64, .f32⟩
  | .hbm, ⟨36, _⟩ => ⟨S128x64, .f32⟩
  | .hbm, ⟨37, _⟩ => ⟨S128x64, .f32⟩
  | .hbm, ⟨38, _⟩ => ⟨S128x64x1, .f32⟩
  | .hbm, ⟨39, _⟩ => ⟨S128x64, .f32⟩
  | .hbm, ⟨40, _⟩ => ⟨S1x64, .f32⟩
  | .hbm, ⟨41, _⟩ => ⟨S128x64, .f32⟩
  | .hbm, ⟨42, _⟩ => ⟨S128x64, .f32⟩
  | .hbm, ⟨43, _⟩ => ⟨S128x64, .f32⟩
  | .hbm, ⟨44, _⟩ => ⟨S128x64x1, .f32⟩
  | .hbm, ⟨45, _⟩ => ⟨S128x64x1, .f32⟩
  | .hbm, ⟨46, _⟩ => ⟨S128x64x2, .f32⟩
  | .hbm, ⟨47, _⟩ => ⟨S128x128, .f32⟩
  | .hbm, ⟨48, _⟩ => ⟨S128x128, .f32⟩
  | .hbm, ⟨49, _⟩ => ⟨S64x128, .f32⟩
  | .hbm, ⟨50, _⟩ => ⟨S64x128, .f32⟩
  | .hbm, ⟨51, _⟩ => ⟨S64x128, .f32⟩
  | .hbm, ⟨52, _⟩ => ⟨S64x128, .f32⟩
  | .hbm, ⟨53, _⟩ => ⟨S_, .f32⟩
  | .hbm, ⟨54, _⟩ => ⟨S128x64, .f32⟩
  | .hbm, ⟨55, _⟩ => ⟨S128x64, .f32⟩
  | .hbm, ⟨56, _⟩ => ⟨S128x64, .f32⟩
  | .hbm, ⟨57, _⟩ => ⟨S128x64, .f32⟩
  | .hbm, ⟨58, _⟩ => ⟨S128x64, .i1⟩
  | .hbm, ⟨59, _⟩ => ⟨S128x64, .f32⟩
  | .hbm, ⟨60, _⟩ => ⟨S128x64, .f32⟩
  | .hbm, ⟨61, _⟩ => ⟨S128x64, .f32⟩
  | .hbm, ⟨62, _⟩ => ⟨S128x64, .f32⟩
  | .hbm, ⟨63, _⟩ => ⟨S128x64, .f32⟩
  | .hbm, ⟨64, _⟩ => ⟨S128x64, .f32⟩
  | .hbm, ⟨65, _⟩ => ⟨S128x64, .f32⟩
  | .hbm, ⟨66, _⟩ => ⟨S128x64, .f32⟩
  | .hbm, ⟨67, _⟩ => ⟨S128x64, .f32⟩
  | .hbm, ⟨68, _⟩ => ⟨S64x128, .f32⟩
  | .hbm, ⟨69, _⟩ => ⟨S128, .i32⟩
  | .hbm, ⟨70, _⟩ => ⟨S128x1, .i32⟩
  | .hbm, ⟨71, _⟩ => ⟨S64, .i32⟩
  | .hbm, ⟨72, _⟩ => ⟨S1x64, .i32⟩
  | .hbm, ⟨73, _⟩ => ⟨S_, .i32⟩
  | .hbm, ⟨74, _⟩ => ⟨S1x64, .i32⟩
  | .hbm, ⟨75, _⟩ => ⟨S1x64, .i32⟩
  | .hbm, ⟨76, _⟩ => ⟨S128x64, .i32⟩
  | .hbm, ⟨77, _⟩ => ⟨S128x64, .i32⟩
  | .hbm, ⟨78, _⟩ => ⟨S128x64, .i1⟩
  | .hbm, ⟨79, _⟩ => ⟨S128x64, .f32⟩
  | .hbm, ⟨80, _⟩ => ⟨S_, .i32⟩
  | .hbm, ⟨81, _⟩ => ⟨S1x64, .i32⟩
  | .hbm, ⟨82, _⟩ => ⟨S1x64, .i32⟩
  | .hbm, ⟨83, _⟩ => ⟨S_, .i32⟩
  | .hbm, ⟨84, _⟩ => ⟨S1x64, .i32⟩
  | .hbm, ⟨85, _⟩ => ⟨S1x64, .i32⟩
  | .hbm, ⟨86, _⟩ => ⟨S128x64, .i32⟩
  | .hbm, ⟨87, _⟩ => ⟨S128x64, .i32⟩
  | .hbm, ⟨88, _⟩ => ⟨S128x64, .i1⟩
  | .hbm, ⟨89, _⟩ => ⟨S128x64, .f32⟩
  | .hbm, ⟨90, _⟩ => ⟨S524288x128, .f32⟩
  | .hbm, ⟨91, _⟩ => ⟨S8192x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S64x128, .f32⟩
  | .local _ .vmem, ⟨4, _⟩ => ⟨S128x64, .f32⟩
  | .local _ .vmem, ⟨5, _⟩ => ⟨S128x64, .f32⟩
  | .local _ .vmem, ⟨6, _⟩ => ⟨S128, .f32⟩
  | .local _ .vmem, ⟨7, _⟩ => ⟨S4096x128, .f32⟩
  | .local _ .vmem, ⟨8, _⟩ => ⟨S4096x128, .f32⟩
  | .local _ .vmem, ⟨9, _⟩ => ⟨S256x128, .f32⟩
  | .local _ .vmem, ⟨10, _⟩ => ⟨S256x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S128, .f32⟩
  | .local _ .vmem, ⟨16, _⟩ => ⟨S128x64, .f32⟩
  | .local _ .vmem, ⟨17, _⟩ => ⟨S128x64, .f32⟩
  | .local _ .vmem, ⟨18, _⟩ => ⟨S256x128, .f32⟩
  | .local _ .vmem, ⟨19, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_0 : Ref sig .tc := ⟨.hbm, 80, rfl⟩
abbrev main_v52 : Ref sig .tc := ⟨.hbm, 81, rfl⟩
abbrev main_v53 : Ref sig .tc := ⟨.hbm, 82, rfl⟩
abbrev main_c_1 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  shapeCasts_S128x128_S128x64x2 : S128x128.ShapeCasts S128x64x2
  slices_S128x64x2_S128x64x1_0_0_0 : S128x64x2.Slices ![0, 0, 0] S128x64x1
  shapeCasts_S128x64x1_S128x64 : S128x64x1.ShapeCasts S128x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  slices_S128x64x2_S128x64x1_0_0_1 : S128x64x2.Slices ![0, 0, 1] S128x64x1
  bcast_S128x64_S128x64x1_0_1 : S128x64.BroadcastsInDim S128x64x1 (![0, 1] : Fin 2 → Fin S128x64x1.rank)
  concatenates_S128x64x1_S128x64x1_S128x64x2_d2 : Shape.Concatenates [S128x64x1, S128x64x1] S128x64x2 2
  shapeCasts_S128x64x2_S128x128 : S128x64x2.ShapeCasts S128x128
  transposes_S128x128_S128x128_1_0 : S128x128.Transposes [1, 0] S128x128
  transposes_S128x64_S64x128_1_0 : S128x64.Transposes [1, 0] S64x128
  bcast_S_S128x64 : S_.BroadcastsInDim S128x64 (![] : Fin 0 → Fin S128x64.rank)
  bcast_S_S1x64 : S_.BroadcastsInDim S1x64 (![] : Fin 0 → Fin S1x64.rank)
  bcast_S128x1_S128x64_0_1 : S128x1.BroadcastsInDim S128x64 (![0, 1] : Fin 2 → Fin S128x64.rank)
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S256x128_S256x128_0_0 : ∀ a, (![0, 0] : Fin 2 → Nat) a + S256x128.size a ≤ S256x128.size a
  h_S256x128 : 0 < S256x128.numel
  reduces_S256x128_S256 : S256x128.Reduces [1] S256
  shapeCasts_S256_S256x1 : S256.ShapeCasts S256x1
  broadcasts_S256x1_S256x128 : S256x1.Broadcasts S256x128
  shapeCasts_S64x128_S1x64x128 : S64x128.ShapeCasts S1x64x128
  shapeCasts_S1x64x128_S1x64x128 : S1x64x128.ShapeCasts S1x64x128
  broadcasts_S1x64x128_S256x64x128 : S1x64x128.Broadcasts S256x64x128
  shapeCasts_S256x64_S256x64x1 : S256x64.ShapeCasts S256x64x1
  shapeCasts_S256x64x1_S256x64x1 : S256x64x1.ShapeCasts S256x64x1
  broadcasts_S256x64x1_S256x64x128 : S256x64x1.Broadcasts S256x64x128
  reduces_S256x64x128_S256x128 : S256x64x128.Reduces [1] S256x128
  broadcasts_S1x128_S256x128 : S1x128.Broadcasts S256x128
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x128_S4096x128_1_0_0_1_n_n_wf : DotDims.WF S4096x64 S64x128 S4096x128 [1] [0] [0] [1] [] []
  dot_S256x128_S128x64_S256x64_1_0_0_1_n_n_wf : DotDims.WF S256x128 S128x64 S256x64 [1] [0] [0] [1] [] []
  dot_S256x64_S64x128_S256x128_1_0_0_1_n_n_wf : DotDims.WF S256x64 S64x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S524288x128.size a
  hwx0_6 : ∀ i : grid0.Coords, EltTy.bits .f32 = 32 ∨ (Rect.block (s := S524288x128) S4096x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x128.size a
  hwx1_0 : ∀ i : grid1.Coords, EltTy.bits .f32 = 32 ∨ (Rect.block (s := S8192x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x128.size a ≤ S8192x128.size a
  hwx1_8 : ∀ i : grid1.Coords, EltTy.bits .f32 = 32 ∨ (Rect.block (s := S8192x128) S256x128.size (cc1_transform_8 i) (hinb1_8 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf

abbrev win0_0 : Pipeline.Window sig grid0 :=
  Pipeline.Window.ofSpec (Memref.whole main_arg1) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v59) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S256x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8192x128 : Shape := ⟨2, ![8192, 128]⟩
abbrev S524288x128 : Shape := ⟨2, ![524288, 128]⟩
abbrev S64 : Shape := ⟨1, ![64]⟩
abbrev S128x128 : Shape := ⟨2, ![128, 128]⟩
abbrev S128x64 : Shape := ⟨2, ![128, 64]⟩
abbrev S128 : Shape := ⟨1, ![128]⟩
abbrev S_ : Shape := ⟨0, ![]⟩
abbrev S128x1 : Shape := ⟨2, ![128, 1]⟩
abbrev S128x64x2 : Shape := ⟨3, ![128, 64, 2]⟩
abbrev S128x64x1 : Shape := ⟨3, ![128, 64, 1]⟩
abbrev S1x64 : Shape := ⟨2, ![1, 64]⟩
abbrev S524288x64x2 : Shape := ⟨3, ![524288, 64, 2]⟩
abbrev S524288x64 : Shape := ⟨2, ![524288, 64]⟩
abbrev S64x128 : Shape := ⟨2, ![64, 128]⟩
abbrev S1x128 : Shape := ⟨2, ![1, 128]⟩
abbrev S8192 : Shape := ⟨1, ![8192]⟩
abbrev S8192x1 : Shape := ⟨2, ![8192, 1]⟩
abbrev S8192x64x2 : Shape := ⟨3, ![8192, 64, 2]⟩
abbrev S1x128x64x2 : Shape := ⟨4, ![1, 128, 64, 2]⟩
abbrev S8192x1x64x2 : Shape := ⟨4, ![8192, 1, 64, 2]⟩
abbrev S8192x128x64x2 : Shape := ⟨4, ![8192, 128, 64, 2]⟩
abbrev S8192x128x64 : Shape := ⟨3, ![8192, 128, 64]⟩
abbrev S8192x64 : Shape := ⟨2, ![8192, 64]⟩
abbrev S1x128x64 : Shape := ⟨3, ![1, 128, 64]⟩

abbrev nBuf : Space → Nat
  | .hbm => 120
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S524288x128, .f32⟩
  | .hbm, ⟨2, _⟩ => ⟨S64, .f32⟩
  | .hbm, ⟨3, _⟩ => ⟨S128x128, .f32⟩
  | .hbm, ⟨4, _⟩ => ⟨S128x64, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S128, .f32⟩
  | .hbm, ⟨9, _⟩ => ⟨S128x128, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x128, .f32⟩
  | .hbm, ⟨18, _⟩ => ⟨S128x128, .f32⟩
  | .hbm, ⟨19, _⟩ => ⟨S128x64x2, .f32⟩
  | .hbm, ⟨20, _⟩ => ⟨S64, .f32⟩
  | .hbm, ⟨21, _⟩ => ⟨S64, .f32⟩
  | .hbm, ⟨22, _⟩ => ⟨S128x64x1, .f32⟩
  | .hbm, ⟨23, _⟩ => ⟨S128x64, .f32⟩
  | .hbm, ⟨24, _⟩ => ⟨S1x64, .f32⟩
  | .hbm, ⟨25, _⟩ => ⟨S128x64, .f32⟩
  | .hbm, ⟨26, _⟩ => ⟨S128x64, .f32⟩
  | .hbm, ⟨27, _⟩ => ⟨S128x64x1, .f32⟩
  | .hbm, ⟨28, _⟩ => ⟨S128x64, .f32⟩
  | .hbm, ⟨29, _⟩ => ⟨S1x64, .f32⟩
  | .hbm, ⟨30, _⟩ => ⟨S128x64, .f32⟩
  | .hbm, ⟨31, _⟩ => ⟨S128x64, .f32⟩
  | .hbm, ⟨32, _⟩ => ⟨S128x64, .f32⟩
  | .hbm, ⟨33, _⟩ => ⟨S128x64x1, .f32⟩
  | .hbm, ⟨34, _⟩ => ⟨S128x64, .f32⟩
  | .hbm, ⟨35, _⟩ => ⟨S1x64, .f32⟩
  | .hbm, ⟨36, _⟩ => ⟨S128x64, .f32⟩
  | .hbm, ⟨37, _⟩ => ⟨S128x64, .f32⟩
  | .hbm, ⟨38, _⟩ => ⟨S128x64x1, .f32⟩
  | .hbm, ⟨39, _⟩ => ⟨S128x64, .f32⟩
  | .hbm, ⟨40, _⟩ => ⟨S1x64, .f32⟩
  | .hbm, ⟨41, _⟩ => ⟨S128x64, .f32⟩
  | .hbm, ⟨42, _⟩ => ⟨S128x64, .f32⟩
  | .hbm, ⟨43, _⟩ => ⟨S128x64, .f32⟩
  | .hbm, ⟨44, _⟩ => ⟨S128x64x1, .f32⟩
  | .hbm, ⟨45, _⟩ => ⟨S128x64x1, .f32⟩
  | .hbm, ⟨46, _⟩ => ⟨S128x64x2, .f32⟩
  | .hbm, ⟨47, _⟩ => ⟨S128x128, .f32⟩
  | .hbm, ⟨48, _⟩ => ⟨S128x128, .f32⟩
  | .hbm, ⟨49, _⟩ => ⟨S524288x128, .f32⟩
  | .hbm, ⟨50, _⟩ => ⟨S524288x64x2, .f32⟩
  | .hbm, ⟨51, _⟩ => ⟨S524288x64x2, .f32⟩
  | .hbm, ⟨52, _⟩ => ⟨S_, .f32⟩
  | .hbm, ⟨53, _⟩ => ⟨S524288x64, .f32⟩
  | .hbm, ⟨54, _⟩ => ⟨S_, .f32⟩
  | .hbm, ⟨55, _⟩ => ⟨S524288x64, .f32⟩
  | .hbm, ⟨56, _⟩ => ⟨S524288x64, .f32⟩
  | .hbm, ⟨57, _⟩ => ⟨S524288x64, .f32⟩
  | .hbm, ⟨58, _⟩ => ⟨S64x128, .f32⟩
  | .hbm, ⟨59, _⟩ => ⟨S524288x128, .f32⟩
  | .hbm, ⟨60, _⟩ => ⟨S524288x128, .f32⟩
  | .hbm, ⟨61, _⟩ => ⟨S1x128, .f32⟩
  | .hbm, ⟨62, _⟩ => ⟨S524288x128, .f32⟩
  | .hbm, ⟨63, _⟩ => ⟨S524288x128, .f32⟩
  | .hbm, ⟨64, _⟩ => ⟨S8192x128, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x128, .f32⟩
  | .hbm, ⟨73, _⟩ => ⟨S8192x128, .f32⟩
  | .hbm, ⟨74, _⟩ => ⟨S8192x64x2, .f32⟩
  | .hbm, ⟨75, _⟩ => ⟨S1x128x64x2, .f32⟩
  | .hbm, ⟨76, _⟩ => ⟨S8192x1x64x2, .f32⟩
  | .hbm, ⟨77, _⟩ => ⟨S8192x128x64x2, .f32⟩
  | .hbm, ⟨78, _⟩ => ⟨S8192x128x64x2, .f32⟩
  | .hbm, ⟨79, _⟩ => ⟨S8192x128x64x2, .f32⟩
  | .hbm, ⟨80, _⟩ => ⟨S8192x128x64x2, .f32⟩
  | .hbm, ⟨81, _⟩ => ⟨S_, .f32⟩
  | .hbm, ⟨82, _⟩ => ⟨S8192x128x64, .f32⟩
  | .hbm, ⟨83, _⟩ => ⟨S_, .f32⟩
  | .hbm, ⟨84, _⟩ => ⟨S8192x128x64, .f32⟩
  | .hbm, ⟨85, _⟩ => ⟨S8192x128x64, .f32⟩
  | .hbm, ⟨86, _⟩ => ⟨S8192x128x64, .f32⟩
  | .hbm, ⟨87, _⟩ => ⟨S8192x64x2, .f32⟩
  | .hbm, ⟨88, _⟩ => ⟨S_, .f32⟩
  | .hbm, ⟨89, _⟩ => ⟨S8192x64, .f32⟩
  | .hbm, ⟨90, _⟩ => ⟨S_, .f32⟩
  | .hbm, ⟨91, _⟩ => ⟨S8192x64, .f32⟩
  | .hbm, ⟨92, _⟩ => ⟨S8192x64, .f32⟩
  | .hbm, ⟨93, _⟩ => ⟨S8192x64, .f32⟩
  | .hbm, ⟨94, _⟩ => ⟨S_, .f32⟩
  | .hbm, ⟨95, _⟩ => ⟨S128x64, .f32⟩
  | .hbm, ⟨96, _⟩ => ⟨S128x64, .f32⟩
  | .hbm, ⟨97, _⟩ => ⟨S128x64, .f32⟩
  | .hbm, ⟨98, _⟩ => ⟨S128x64, .f32⟩
  | .hbm, ⟨99, _⟩ => ⟨S128x64, .i1⟩
  | .hbm, ⟨100, _⟩ => ⟨S128x64, .f32⟩
  | .hbm, ⟨101, _⟩ => ⟨S128x64, .f32⟩
  | .hbm, ⟨102, _⟩ => ⟨S128x64, .f32⟩
  | .hbm, ⟨103, _⟩ => ⟨S128x64, .f32⟩
  | .hbm, ⟨104, _⟩ => ⟨S128x64, .f32⟩
  | .hbm, ⟨105, _⟩ => ⟨S128x64, .f32⟩
  | .hbm, ⟨106, _⟩ => ⟨S128x64, .f32⟩
  | .hbm, ⟨107, _⟩ => ⟨S128x64, .f32⟩
  | .hbm, ⟨108, _⟩ => ⟨S128x64, .f32⟩
  | .hbm, ⟨109, _⟩ => ⟨S1x128x64, .f32⟩
  | .hbm, ⟨110, _⟩ => ⟨S8192x128x64, .f32⟩
  | .hbm, ⟨111, _⟩ => ⟨S8192x128x64, .f32⟩
  | .hbm, ⟨112, _⟩ => ⟨S_, .f32⟩
  | .hbm, ⟨113, _⟩ => ⟨S8192x128, .f32⟩
  | .hbm, ⟨114, _⟩ => ⟨S64x128, .f32⟩
  | .hbm, ⟨115, _⟩ => ⟨S8192x128, .f32⟩
  | .hbm, ⟨116, _⟩ => ⟨S8192x128, .f32⟩
  | .hbm, ⟨117, _⟩ => ⟨S1x128, .f32⟩
  | .hbm, ⟨118, _⟩ => ⟨S8192x128, .f32⟩
  | .hbm, ⟨119, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_0 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call1_v0 : Ref sig .tc := ⟨.hbm, 64, rfl⟩
abbrev main_call1_cst : Ref sig .tc := ⟨.hbm, 65, rfl⟩
abbrev main_call1_v1 : Ref sig .tc := ⟨.hbm, 66, rfl⟩
abbrev main_call1_v2 : Ref sig .tc := ⟨.hbm, 67, rfl⟩
abbrev main_v48 : Ref sig .tc := ⟨.hbm, 68, rfl⟩
abbrev main_cst_2 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_3 : Ref sig .tc := ⟨.hbm, 81, rfl⟩
abbrev main_v60 : Ref sig .tc := ⟨.hbm, 82, rfl⟩
abbrev main_cst_4 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_5 : Ref sig .tc := ⟨.hbm, 88, rfl⟩
abbrev main_v65 : Ref sig .tc := ⟨.hbm, 89, rfl⟩
abbrev main_cst_6 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_7 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  shapeCasts_S128x128_S128x64x2 : S128x128.ShapeCasts S128x64x2
  slices_S128x64x2_S128x64x1_0_0_0 : S128x64x2.Slices ![0, 0, 0] S128x64x1
  shapeCasts_S128x64x1_S128x64 : S128x64x1.ShapeCasts S128x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  slices_S128x64x2_S128x64x1_0_0_1 : S128x64x2.Slices ![0, 0, 1] S128x64x1
  bcast_S128x64_S128x64x1_0_1 : S128x64.BroadcastsInDim S128x64x1 (![0, 1] : Fin 2 → Fin S128x64x1.rank)
  concatenates_S128x64x1_S128x64x1_S128x64x2_d2 : Shape.Concatenates [S128x64x1, S128x64x1] S128x64x2 2
  shapeCasts_S128x64x2_S128x128 : S128x64x2.ShapeCasts S128x128
  transposes_S128x128_S128x128_1_0 : S128x128.Transposes [1, 0] S128x128
  shapeCasts_S524288x128_S524288x64x2 : S524288x128.ShapeCasts S524288x64x2
  reducesTo_S524288x64x2_S524288x64_d2 : S524288x64x2.ReducesTo [2] S524288x64
  bcast_S_S524288x64 : S_.BroadcastsInDim S524288x64 (![] : Fin 0 → Fin S524288x64.rank)
  transposes_S128x64_S64x128_1_0 : S128x64.Transposes [1, 0] S64x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  reducesTo_S8192x128_S8192_d1 : S8192x128.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  shapeCasts_S8192x128_S8192x64x2 : S8192x128.ShapeCasts S8192x64x2
  bcast_S128x64x2_S1x128x64x2_1_2_3 : S128x64x2.BroadcastsInDim S1x128x64x2 (![1, 2, 3] : Fin 3 → Fin S1x128x64x2.rank)
  bcast_S8192x64x2_S8192x1x64x2_0_2_3 : S8192x64x2.BroadcastsInDim S8192x1x64x2 (![0, 2, 3] : Fin 3 → Fin S8192x1x64x2.rank)
  bcast_S1x128x64x2_S8192x128x64x2_0_1_2_3 : S1x128x64x2.BroadcastsInDim S8192x128x64x2 (![0, 1, 2, 3] : Fin 4 → Fin S8192x128x64x2.rank)
  bcast_S8192x1x64x2_S8192x128x64x2_0_1_2_3 : S8192x1x64x2.BroadcastsInDim S8192x128x64x2 (![0, 1, 2, 3] : Fin 4 → Fin S8192x128x64x2.rank)
  reducesTo_S8192x128x64x2_S8192x128x64_d3 : S8192x128x64x2.ReducesTo [3] S8192x128x64
  bcast_S_S8192x128x64 : S_.BroadcastsInDim S8192x128x64 (![] : Fin 0 → Fin S8192x128x64.rank)
  reducesTo_S8192x64x2_S8192x64_d2 : S8192x64x2.ReducesTo [2] S8192x64
  bcast_S_S8192x64 : S_.BroadcastsInDim S8192x64 (![] : Fin 0 → Fin S8192x64.rank)
  bcast_S_S128x64 : S_.BroadcastsInDim S128x64 (![] : Fin 0 → Fin S128x64.rank)
  bcast_S128x64_S1x128x64_1_2 : S128x64.BroadcastsInDim S1x128x64 (![1, 2] : Fin 2 → Fin S1x128x64.rank)
  bcast_S1x128x64_S8192x128x64_0_1_2 : S1x128x64.BroadcastsInDim S8192x128x64 (![0, 1, 2] : Fin 3 → Fin S8192x128x64.rank)
  reducesTo_S8192x128x64_S8192x128_d2 : S8192x128x64.ReducesTo [2] S8192x128
  bcast_S1x128_S8192x128_0_1 : S1x128.BroadcastsInDim S8192x128 (![0, 1] : Fin 2 → Fin S8192x128.rank)
  dot_S524288x128_S128x128_S524288x128_1_0_0_1_n_n_wf : DotDims.WF S524288x128 S128x128 S524288x128 [1] [0] [0] [1] [] []
  dot_S524288x64_S64x128_S524288x128_1_0_0_1_n_n_wf : DotDims.WF S524288x64 S64x128 S524288x128 [1] [0] [0] [1] [] []
  dot_S8192x64_S64x128_S8192x128_1_0_0_1_n_n_wf : DotDims.WF S8192x64 S64x128 S8192x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x64_S64x128_S524288x128_1_0_0_1_n_n : DotDims S524288x64 S64x128 S524288x128 where
  lhsContracting := [1]
  rhsContracting := [0]
  lhsNonContracting := [0]
  rhsNonContracting := [1]
  lhsBatch := []
  rhsBatch := []
  wf := dot_S524288x64_S64x128_S524288x128_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

class Facts : Prop extends Facts₀ where

variable [Facts]
-- ==== Proof.Spec.lean ====
/-
  The two score tables as plain functions of the argument arrays, entry by entry, over the extended reals.

  A row of 128 channels is read as 64 pairs (channel 2f, channel 2f+1). For a key row k and bin b the score is
      sum_d k_d * P_{d,b}  +  sum_f |pair_f(k)| * W_{b,f}  +  bias_b,
  where |pair_f(x)| = sqrt (x_{2f}^2 + x_{2f+1}^2 + eps). For a query row q, first scaled to q / (|q| + eps), it is
      sum_f sqrt ((R0_{b,f} - q_{2f})^2 + (R1_{b,f} - q_{2f+1})^2 + eps) * E_{b,f}  +  sum_f |pair_f(q)| * W_{b,f}  +  bias_b.
  The rotated probe table P (and its two halves R0, R1) and the weights E are computed from the arguments by the same
  host operations in both programs, so they enter here as parameters.

  One law is proved here: a row contracted with a 0/1 table that has a single 1 per column picks that entry of the
  row (no finiteness is needed: on the extended reals x * 0 = 0 for every x).
-/
import Idealize.ShloMosaic.PureOps.Ideal.Laws
import Idealize.ShloMosaic.Lib.ValueIdx

noncomputable section

namespace Cert.Spec

open Idealize.ShloMosaic Idealize.ShloMosaic.ValueIdx

/-- The first channel of pair `f`. -/
def ev (f : Fin 64) : Fin 128 := ⟨2 * f.val, by omega⟩
/-- The second channel of pair `f`. -/
def od (f : Fin 64) : Fin 128 := ⟨2 * f.val + 1, by omega⟩

@[simp] theorem ev_val (f : Fin 64) : (ev f).val = 2 * f.val := rfl
@[simp] theorem od_val (f : Fin 64) : (od f).val = 2 * f.val + 1 := rfl

/-- The small constant under every square root and beside every norm: the same float word in both programs. -/
def eps : EReal := Ideal.ofBits .f32 0x322BCC77#32

/-- The length of pair `f` of a row, smoothed by `eps`. -/
def pairMag (x : Fin 128 → EReal) (f : Fin 64) : EReal :=
  Ideal.sqrt (x (ev f) * x (ev f) + x (od f) * x (od f) + eps)

/-- A row divided by its Euclidean length plus `eps`. -/
def unitRow (x : Fin 128 → EReal) (d : Fin 128) : EReal :=
  Ideal.div (x d) (Ideal.sqrt (∑ d' : Fin 128, x d' * x d') + eps)

/-- The smoothed distance of pair `f` of a row from the point `(r0, r1)`. -/
def pairDist (r0 r1 : EReal) (x : Fin 128 → EReal) (f : Fin 64) : EReal :=
  Ideal.sqrt ((r0 - x (ev f)) * (r0 - x (ev f)) + (r1 - x (od f)) * (r1 - x (od f)) + eps)

/-- A key row's score against one bin. -/
def keyLogit (k rp : Fin 128 → EReal) (w : Fin 64 → EReal) (b : EReal) : EReal :=
  ((∑ d : Fin 128, k d * rp d) + ∑ f : Fin 64, pairMag k f * w f) + b

/-- A query row's score against one bin. -/
def queryLogit (q : Fin 128 → EReal) (r0 r1 e w : Fin 64 → EReal) (b : EReal) : EReal :=
  ((∑ f : Fin 64, pairDist (r0 f) (r1 f) (unitRow q) f * e f) + ∑ f : Fin 64, pairMag (unitRow q) f * w f) + b

/-- The key scores: `rpt` is the rotated probe table laid out channel by bin, `w` the magnitude weights bin by pair. -/
def GK (K : FVec Ideal ⟨2, ![524288, 128]⟩ .f32) (rpt : FVec Ideal ⟨2, ![128, 128]⟩ .f32)
    (w : FVec Ideal ⟨2, ![128, 64]⟩ .f32) (bias : FVec Ideal ⟨1, ![128]⟩ .f32) : FVec Ideal ⟨2, ![524288, 128]⟩ .f32 :=
  fun i => keyLogit (fun d => K (ix2 (i 0) d)) (fun d => rpt (ix2 d (i 1))) (fun f => w (ix2 (i 1) f)) (bias (ix1 (i 1)))

/-- The query scores: `r0`, `r1` the two halves of the rotated probes, `e` the distance weights, `w` the magnitude
    weights, all bin by pair. -/
def GQ (Q : FVec Ideal ⟨2, ![8192, 128]⟩ .f32) (r0 r1 e w : FVec Ideal ⟨2, ![128, 64]⟩ .f32)
    (bias : FVec Ideal ⟨1, ![128]⟩ .f32) : FVec Ideal ⟨2, ![8192, 128]⟩ .f32 :=
  fun i => queryLogit (fun d => Q (ix2 (i 0) d)) (fun f => r0 (ix2 (i 1) f)) (fun f => r1 (ix2 (i 1) f))
    (fun f => e (ix2 (i 1) f)) (fun f => w (ix2 (i 1) f)) (bias (ix1 (i 1)))

/-- Contracting a row with the indicator of one position picks that position. -/
theorem sum_mul_indicator (x : Fin 128 → EReal) (d₀ : Fin 128) (s : Fin 128 → EReal)
    (h1 : s d₀ = 1) (h0 : ∀ d, d ≠ d₀ → s d = 0) : ∑ d : Fin 128, x d * s d = x d₀ := by
  rw [Finset.sum_eq_single d₀ (fun d _ hd => by rw [h0 d hd, mul_zero]) (fun h => absurd (Finset.mem_univ _) h), h1, mul_one]

/-- The even selector picks channel `2f`. -/
theorem sum_sel_even (x : Fin 128 → EReal) (f : Fin 64) :
    ∑ d : Fin 128, x d * (if d.val = 2 * f.val then (1 : EReal) else 0) = x (ev f) :=
  sum_mul_indicator x (ev f) _ (if_pos rfl) (fun d hd => if_neg fun h => hd (Fin.ext h))

/-- The odd selector picks channel `2f + 1`. -/
theorem sum_sel_odd (x : Fin 128 → EReal) (f : Fin 64) :
    ∑ d : Fin 128, x d * (if d.val = 2 * f.val + 1 then (1 : EReal) else 0) = x (od f) :=
  sum_mul_indicator x (od f) _ (if_pos rfl) (fun d hd => if_neg fun h => hd (Fin.ext h))

end Cert.Spec

end
-- ==== Proof.LibMatmul.lean ====
/-
  A plain matrix product read at an index, for any extents.

  A product of an `R × K` matrix with a `K × C` matrix whose dimension numbers contract the left operand's columns
  with the right operand's rows and have no batch axes is, at entry `(p, q)` and over the extended reals,
  the finite sum over `k` of `l (p, k) · r (k, q)`; into a zero accumulator nothing is added to it.
-/
import Idealize.ShloMosaic.PureOps.Ideal.Laws
import Idealize.ShloMosaic.Lib.ValueIdx

noncomputable section

namespace Cert.LibMatmul

open Idealize.ShloMosaic Idealize.ShloMosaic.ValueIdx

variable {R K C : Nat}

/-- The operand indices of a plain product at result entry `(p, q)` and contraction position `k`:
    `(p, k)` on the left, `(k, q)` on the right. -/
theorem plain_operand_indices (d : DotDims (⟨2, ![R, K]⟩ : Shape) (⟨2, ![K, C]⟩ : Shape) (⟨2, ![R, C]⟩ : Shape))
    (hlc : d.lhsContracting = [1]) (hrc : d.rhsContracting = [0])
    (hln : d.lhsNonContracting = [0]) (hrn : d.rhsNonContracting = [1])
    (hlb : d.lhsBatch = []) (hrb : d.rhsBatch = [])
    (p : Fin R) (q : Fin C) (κ : d.contr.Idx) (k : Fin K)
    (hκ : (κ ⟨0, by rw [d.rank_contr, hlc]; exact Nat.one_pos⟩).val = k.val) :
    d.lhsIdx (ix2 p q) κ = ix2 p k ∧ d.rhsIdx (ix2 p q) κ = ix2 k q := by
  have key : ∀ (j : (⟨2, ![R, C]⟩ : Shape).Idx) (n n' : Nat) (hn : n < 2) (hn' : n' < 2), n = n' →
      (j ⟨n, hn⟩).val = (j ⟨n', hn'⟩).val := fun j n n' hn hn' e => by subst e; rfl
  constructor
  · funext a; apply Fin.ext
    match a with
    | ⟨0, _⟩ =>
      show (d.lhsIdx (ix2 p q) κ (0 : Fin 2)).val = p.val
      unfold DotDims.lhsIdx
      rw [dif_neg (by rw [hlb]; exact List.not_mem_nil), dif_pos (by rw [hln]; exact List.mem_singleton.mpr rfl)]
      simp only [Fin.val_cast]
      exact (key (ix2 p q) _ 0 _ (by decide) (by simp [hlb, hln])).trans rfl
    | ⟨1, _⟩ =>
      show (d.lhsIdx (ix2 p q) κ (1 : Fin 2)).val = k.val
      exact (d.lhsIdx_val_of_single hlc (ix2 p q) κ).trans hκ
  · funext a; apply Fin.ext
    match a with
    | ⟨0, _⟩ =>
      show (d.rhsIdx (ix2 p q) κ (0 : Fin 2)).val = k.val
      exact (d.rhsIdx_val_of_single hrc (ix2 p q) κ).trans hκ
    | ⟨1, _⟩ =>
      show (d.rhsIdx (ix2 p q) κ (1 : Fin 2)).val = q.val
      unfold DotDims.rhsIdx
      rw [dif_neg (by rw [hrb]; exact List.not_mem_nil), dif_pos (by rw [hrn]; exact List.mem_singleton.mpr rfl)]
      simp only [Fin.val_cast]
      exact (key (ix2 p q) _ 1 _ (by decide) (by simp [hlb, hln, hrn])).trans rfl

/-- A plain product into the zero accumulator, at entry `(p, q)`: the sum over the contracted extent. -/
theorem matmul_rows_cols {φ₁ φ₂ : FTy} (d : DotDims (⟨2, ![R, K]⟩ : Shape) (⟨2, ![K, C]⟩ : Shape) (⟨2, ![R, C]⟩ : Shape))
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (l : FVec Ideal (⟨2, ![R, K]⟩ : Shape) φ₁) (r : FVec Ideal (⟨2, ![K, C]⟩ : Shape) φ₂)
    (p : Fin R) (q : Fin C) :
    FloatOps.matmul d prec l r (constant (⟨2, ![R, C]⟩ : Shape) .f32 0x00000000#32) (ix2 p q)
      = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  obtain ⟨el, er⟩ := plain_operand_indices d hlc hrc hln hrn hlb hrb p q ((contrEquiv1 d K hr hs).symm k) k
    (contrEquiv1_symm_val d K hr hs k)
  rw [el, er]

end Cert.LibMatmul

end
-- ==== Proof.KBody.lean ====
/-
  What the key kernel's body stores, entry by entry, at the ideal values: for the block's row p and bin q,
  the row's product with the probe table, plus the pair magnitudes (each the square root of the squares of the row's
  two contractions with the selector tables, plus eps) contracted with the weight table, plus the bias.

  The body is a chain of pointwise operations around four matrix products and one row broadcast. Over the extended
  reals rounding to a narrower format is the identity, a cast to the same shape is the identity, and a product into a
  zero accumulator is the plain sum over the contracted axis; so the entry at (p, q) is read off operation by operation.
-/
import proofs.«110540_j22608707846768_1_alg».proof.Proof.Gen.KernelIdeal.Skeleton
import proofs.«110540_j22608707846768_1_alg».proof.Proof.Spec
import proofs.«110540_j22608707846768_1_alg».proof.Proof.LibMatmul
import Idealize.ShloMosaic.Lib.ValueLayout

noncomputable section

namespace Cert.KernelIdeal.KBody

open Cert.KernelIdeal Idealize.ShloMosaic Idealize.ShloMosaic.ValueIdx

/-- The bias, a vector of 128 bins viewed as one row and repeated down 4096 rows, reads at (p, q) its entry q:
    the repeated row does not depend on p, and the one-row view of a vector keeps its order. -/
theorem bias_apply (b : FVec Ideal S128 .f32) (h1 : S128.ShapeCasts S1x128) (h2 : S1x128.Broadcasts S4096x128)
    (p : Fin 4096) (q : Fin 128) :
    broadcastTo S4096x128 (shapeCast S1x128 b h1) h2 (ix2 p q) = b (ix1 q) :=
  (broadcastTo_1b_ab_apply _ h2 p q).trans (shapeCast_a_1a_apply b h1 0 q)

/-- The product of the 4096 x 128 block of rows with a 128 x 128 table, at (p, q): the sum over the 128 channels. -/
theorem probe_apply (l : FVec Ideal S4096x128 .bf16) (r : FVec Ideal S128x128 .bf16) (p : Fin 4096) (q : Fin 128) :
    matmul dot_S4096x128_S128x128_S4096x128_1_0_0_1_n_n none l r (constant S4096x128 .f32 0x00000000#32) (ix2 p q)
      = ∑ d : Fin 128, l (ix2 p d) * r (ix2 d q) :=
  Cert.LibMatmul.matmul_rows_cols _ rfl rfl rfl rfl rfl rfl none l r p q

/-- The product of the block of rows with a 128 x 64 selector table, at (p, f): the sum over the 128 channels. -/
theorem sel_apply (x : FVec Ideal S4096x128 .f32) (s : FVec Ideal S128x64 .f32) (p : Fin 4096) (f : Fin 64) :
    matmul dot_S4096x128_S128x64_S4096x64_1_0_0_1_n_n (some .fp32) x s (constant S4096x64 .f32 0x00000000#32) (ix2 p f)
      = ∑ d : Fin 128, x (ix2 p d) * s (ix2 d f) :=
  Cert.LibMatmul.matmul_rows_cols _ rfl rfl rfl rfl rfl rfl _ x s p f

/-- The product of the 4096 x 64 pair magnitudes with the 64 x 128 weight table, at (p, q): the sum over the 64 pairs. -/
theorem mag_apply (l : FVec Ideal S4096x64 .bf16) (r : FVec Ideal S64x128 .bf16) (p : Fin 4096) (q : Fin 128) :
    matmul dot_S4096x64_S64x128_S4096x128_1_0_0_1_n_n none l r (constant S4096x128 .f32 0x00000000#32) (ix2 p q)
      = ∑ f : Fin 64, l (ix2 p f) * r (ix2 f q) :=
  Cert.LibMatmul.matmul_rows_cols _ rfl rfl rfl rfl rfl rfl none l r p q

/-- A square root taken entry by entry reads, at an index, the square root of the entry there. -/
theorem sqrt_apply {s : Shape} {φ : FTy} (a : FVec Ideal s φ) (i : s.Idx) : sqrt a i = Ideal.sqrt (a i) := rfl

theorem pay_apply (x0 : Vec Ideal S4096x128 .f32) (x1 : Vec Ideal S128x128 .f32) (pe po : Vec Ideal S128x64 .f32)
    (w : Vec Ideal S64x128 .f32) (b : Vec Ideal S128 .f32) (p : Fin 4096) (q : Fin 128) :
    Gen.k0_pay1 (F := Ideal) x0 x1 pe po w b (ix2 p q)
      = ((∑ d : Fin 128, x0 (ix2 p d) * x1 (ix2 d q))
          + ∑ f : Fin 64, Ideal.sqrt ((∑ d : Fin 128, x0 (ix2 p d) * pe (ix2 d f)) * (∑ d : Fin 128, x0 (ix2 p d) * pe (ix2 d f))
              + (∑ d : Fin 128, x0 (ix2 p d) * po (ix2 d f)) * (∑ d : Fin 128, x0 (ix2 p d) * po (ix2 d f)) + Cert.Spec.eps) * w (ix2 f q))
        + b (ix1 q) := by
  unfold Gen.k0_pay1
  -- the stored value is (probe product + magnitude product) + bias, each read at (p, q)
  rw [addf_apply, addf_apply, bias_apply, probe_apply, mag_apply]
  refine congrArg₂ (· + ·) (congrArg₂ (· + ·) ?_ ?_) rfl
  · -- the probe product: term by term, the rounded row entry is the entry and the recast table is the table
    refine Finset.sum_congr rfl fun d _ => ?_
    rw [truncf_apply, truncf_apply, shapeCast_self]
  · -- the magnitude product: term by term, the rounded magnitude at (p, f) is the square root of the two squared
    -- selector contractions plus the constant, and the recast weight table is the table
    refine Finset.sum_congr rfl fun f _ => ?_
    rw [truncf_apply, truncf_apply, shapeCast_self, sqrt_apply, addf_apply, addf_apply, mulf_apply, mulf_apply,
      broadcast_apply, sel_apply, sel_apply, shapeCast_self, shapeCast_self]
    -- the constant under the root is the float word that eps names
    rfl

end Cert.KernelIdeal.KBody

end
-- ==== Proof.HostValues.lean ====
/-
  The contents of the tables the two kernels read, as the host operations before the first kernel leave them: the
  rotated probe table, its two halves transposed, the three transposed weight tables (one of them the negated
  softplus), the two 0/1 selector tables (row d, column f: 1 exactly when d = 2f, resp. d = 2f + 1), and the arguments
  untouched; and that the first kernel leaves all of them as it found them.
  The rotated probes and the softplus weights are the same host operations in the reference program, whose stage
  functions name them here.
-/
import proofs.«110540_j22608707846768_1_alg».proof.Proof.Gen.KernelIdeal.Frame
import proofs.«110540_j22608707846768_1_alg».proof.Proof.Gen.ReferenceIdeal.Read
import proofs.«110540_j22608707846768_1_alg».proof.Proof.Spec
import Idealize.ShloMosaic.Lib.StableHlo.Run
import Idealize.ShloMosaic.Lib.StableHlo.Predicate
import Idealize.ShloMosaic.Lib.Pipeline.Value
import Idealize.ShloMosaic.Lib.ValueIdx

set_option maxRecDepth 16384

noncomputable section

namespace Cert.KernelIdeal.HostValues

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## At the first kernel's entry -/

theorem arg0_eq : V4 m ρ c main_arg0 = m ((c : Thread nD τ).loc main_arg0) := by
  dsimp only [V4, W4, W3, W2, W1, W0]; after_results
theorem arg1_eq : V4 m ρ c main_arg1 = m ((c : Thread nD τ).loc main_arg1) := by
  dsimp only [V4, W4, W3, W2, W1, W0]; after_results
theorem arg5_eq : V4 m ρ c main_arg5 = m ((c : Thread nD τ).loc main_arg5) := by
  dsimp only [V4, W4, W3, W2, W1, W0]; after_results
theorem arg8_eq : V4 m ρ c main_arg8 = m ((c : Thread nD τ).loc main_arg8) := by
  dsimp only [V4, W4, W3, W2, W1, W0]; after_results

/-- Reading a transposed table at (f, b) is reading the table at (b, f). -/
theorem transpose_ix2 (y : Vec Ideal S128x64 .f32) (f : Fin 64) (b : Fin 128) :
    (transpose S64x128 [1, 0] y transposes_S128x64_S64x128_1_0 : Vec Ideal S64x128 .f32) (ix2 f b) = y (ix2 b f) :=
  transpose_apply [1, 0] y transposes_S128x64_S64x128_1_0 (ix2 f b) (ix2 b f)
    (fun a => match a with | ⟨0, _⟩ => rfl | ⟨1, _⟩ => rfl)

theorem v34_eq : (V4 m ρ c main_v34 : Vec Ideal S128x128 .f32)
    = Cert.ReferenceIdeal.Read.val_main_v34 (F := Ideal) (m ((c : Thread nD τ).loc main_arg2)) (m ((c : Thread nD τ).loc main_arg3)) := by
  dsimp only [V4, W4, W3, W2, W1, W0]; after_results_simp
  rfl

theorem v35_apply (f : Fin 64) (b : Fin 128) : (V4 m ρ c main_v35 : Vec Ideal S64x128 .f32) (ix2 f b)
    = Cert.ReferenceIdeal.Read.val_main_v18 (F := Ideal) (m ((c : Thread nD τ).loc main_arg2)) (m ((c : Thread nD τ).loc main_arg3)) (ix2 b f) := by
  have e : (V4 m ρ c main_v35 : Vec Ideal S64x128 .f32)
      = transpose S64x128 [1, 0] (Cert.ReferenceIdeal.Read.val_main_v18 (F := Ideal) (m ((c : Thread nD τ).loc main_arg2))
          (m ((c : Thread nD τ).loc main_arg3))) transposes_S128x64_S64x128_1_0 := by
    dsimp only [V4, W4, W3, W2, W1, W0]; after_results_simp
    rfl
  rw [e]; exact transpose_ix2 _ f b

theorem v36_apply (f : Fin 64) (b : Fin 128) : (V4 m ρ c main_v36 : Vec Ideal S64x128 .f32) (ix2 f b)
    = Cert.ReferenceIdeal.Read.val_main_v29 (F := Ideal) (m ((c : Thread nD τ).loc main_arg2)) (m ((c : Thread nD τ).loc main_arg3)) (ix2 b f) := by
  have e : (V4 m ρ c main_v36 : Vec Ideal S64x128 .f32)
      = transpose S64x128 [1, 0] (Cert.ReferenceIdeal.Read.val_main_v29 (F := Ideal) (m ((c : Thread nD τ).loc main_arg2))
          (m ((c : Thread nD τ).loc main_arg3))) transposes_S128x64_S64x128_1_0 := by
    dsimp only [V4, W4, W3, W2, W1, W0]; after_results_simp
    rfl
  rw [e]; exact transpose_ix2 _ f b

theorem v37_apply (f : Fin 64) (b : Fin 128) : (V4 m ρ c main_v37 : Vec Ideal S64x128 .f32) (ix2 f b)
    = (m ((c : Thread nD τ).loc main_arg4) : Vec Ideal S128x64 .f32) (ix2 b f) := by
  have e : (V4 m ρ c main_v37 : Vec Ideal S64x128 .f32)
      = transpose S64x128 [1, 0] (m ((c : Thread nD τ).loc main_arg4) : Vec Ideal S128x64 .f32) transposes_S128x64_S64x128_1_0 := by
    dsimp only [V4, W4, W3, W2, W1, W0]; after_results_simp
  rw [e]; exact transpose_ix2 _ f b

theorem v38_apply (f : Fin 64) (b : Fin 128) : (V4 m ρ c main_v38 : Vec Ideal S64x128 .f32) (ix2 f b)
    = (m ((c : Thread nD τ).loc main_arg7) : Vec Ideal S128x64 .f32) (ix2 b f) := by
  have e : (V4 m ρ c main_v38 : Vec Ideal S64x128 .f32)
      = transpose S64x128 [1, 0] (m ((c : Thread nD τ).loc main_arg7) : Vec Ideal S128x64 .f32) transposes_S128x64_S64x128_1_0 := by
    dsimp only [V4, W4, W3, W2, W1, W0]; after_results_simp
  rw [e]; exact transpose_ix2 _ f b

theorem v41_apply (f : Fin 64) (b : Fin 128) : (V4 m ρ c main_v41 : Vec Ideal S64x128 .f32) (ix2 f b)
    = Cert.ReferenceIdeal.Read.val_main_v70 (F := Ideal) (m ((c : Thread nD τ).loc main_arg6)) (ix2 b f) := by
  have e : (V4 m ρ c main_v41 : Vec Ideal S64x128 .f32)
      = transpose S64x128 [1, 0] (Cert.ReferenceIdeal.Read.val_main_v70 (F := Ideal) (m ((c : Thread nD τ).loc main_arg6)))
          transposes_S128x64_S64x128_1_0 := by
    dsimp only [V4, W4, W3, W2, W1, W0]; after_results_simp
    rfl
  rw [e]; exact transpose_ix2 _ f b

/-! ## The two selector tables: row word against column word -/

/-- The index of two coordinates, in either of the two spellings in use. -/
theorem ij_eq_ix2 {n k : Nat} (p : Fin n) (q : Fin k) : Predicate.ij p q = ix2 p q := by
  funext a; match a with | ⟨0, _⟩ => rfl | ⟨1, _⟩ => rfl

/-- The row numbers laid along the first axis read, at (d, f), the word of d. -/
theorem rowWord_apply (d : Fin 128) (f : Fin 64) :
    (broadcastInDim S128x64 ![0, 1] bcast_S128x1_S128x64_0_1
      (broadcastInDim S128x1 ![0] bcast_S128_S128x1_0 (iotaInDim S128 32 0)) : IVec S128x64 32) (ix2 d f)
      = BitVec.ofNat 32 d.val := by
  rw [← ij_eq_ix2]
  exact (Predicate.bcast_rows bcast_S128_S128x1_0 bcast_S128x1_S128x64_0_1 _ d f).trans (Predicate.iota_apply d)

/-- A row of 64 words laid along the second axis reads, at (d, f), the row's word at f. -/
theorem ofRow_apply (v : IVec S1x64 32) (d : Fin 128) (f : Fin 64) :
    (broadcastInDim S128x64 ![0, 1] bcast_S1x64_S128x64_0_1 v : IVec S128x64 32) (ix2 d f) = v (Predicate.i1q f) := by
  rw [← ij_eq_ix2]
  exact Predicate.bcast_of_row bcast_S1x64_S128x64_0_1 v d f

/-- The column numbers as a row read, at f, the word of f. -/
theorem colWord_apply (f : Fin 64) :
    (broadcastInDim S1x64 ![1] bcast_S64_S1x64_1 (iotaInDim S64 32 0) : IVec S1x64 32) (Predicate.i1q f)
      = BitVec.ofNat 32 f.val :=
  (Predicate.bcast_row1 bcast_S64_S1x64_1 _ f).trans (Predicate.iota_apply f)

/-- A splat word as a row reads that word everywhere. -/
theorem splatRow_apply (w : BitVec 32) (f : Fin 64) :
    (broadcastInDim S1x64 ![] bcast_S_S1x64 (constantI S_ 32 w) : IVec S1x64 32) (Predicate.i1q f) = w :=
  Predicate.bcast_scalar bcast_S_S1x64 h_S_ _ _

/-- The 0/1 value of a word comparison, as an extended real. -/
theorem uitofp_cmpi_eq (a b : BitVec 32) :
    (FloatOps.uitofp (F := Ideal) .f32 (IntOp.cmpi .eq a b) : EReal) = if a = b then 1 else 0 := by
  by_cases h : a = b
  · rw [if_pos h, Predicate.cmpi_eq_iff.mpr h]
    show (((1#1 : BitVec 1).toNat : ℝ) : EReal) = 1
    simp
  · rw [if_neg h, eq_zero_of_ne_one (fun h1 => h (Predicate.cmpi_eq_iff.mp h1))]
    show (((0#1 : BitVec 1).toNat : ℝ) : EReal) = 0
    simp

/-- Below 2^32 nothing wraps: the word of d is twice the word of f exactly when d = 2f … -/
theorem word_even_iff (d : Fin 128) (f : Fin 64) :
    BitVec.ofNat 32 d.val = IntOp.muli 2#32 (BitVec.ofNat 32 f.val) ↔ d.val = 2 * f.val := by
  have hd := d.isLt; have hf := f.isLt
  constructor
  · intro h
    have h' := congrArg BitVec.toNat h
    simp only [IntOp.muli, BitVec.toNat_mul, BitVec.toNat_ofNat] at h'
    omega
  · intro h
    apply BitVec.eq_of_toNat_eq
    simp only [IntOp.muli, BitVec.toNat_mul, BitVec.toNat_ofNat]
    omega

/-- … and twice the word of f plus one exactly when d = 2f + 1. -/
theorem word_odd_iff (d : Fin 128) (f : Fin 64) :
    BitVec.ofNat 32 d.val = IntOp.addi (IntOp.muli 2#32 (BitVec.ofNat 32 f.val)) 1#32 ↔ d.val = 2 * f.val + 1 := by
  have hd := d.isLt; have hf := f.isLt
  constructor
  · intro h
    have h' := congrArg BitVec.toNat h
    simp only [IntOp.addi, IntOp.muli, BitVec.toNat_add, BitVec.toNat_mul, BitVec.toNat_ofNat] at h'
    omega
  · intro h
    apply BitVec.eq_of_toNat_eq
    simp only [IntOp.addi, IntOp.muli, BitVec.toNat_add, BitVec.toNat_mul, BitVec.toNat_ofNat]
    omega

theorem v51_apply (d : Fin 128) (f : Fin 64) : (V4 m ρ c main_v51 : Vec Ideal S128x64 .f32) (ix2 d f)
    = if d.val = 2 * f.val then (1 : EReal) else 0 := by
  have e : (V4 m ρ c main_v51 : Vec Ideal S128x64 .f32)
      = (uitofp (F := Ideal) .f32 (cmpi .eq
          (broadcastInDim S128x64 ![0, 1] bcast_S128x1_S128x64_0_1
            (broadcastInDim S128x1 ![0] bcast_S128_S128x1_0 (iotaInDim S128 32 0)))
          (broadcastInDim S128x64 ![0, 1] bcast_S1x64_S128x64_0_1
            (muli (broadcastInDim S1x64 ![] bcast_S_S1x64 (constantI S_ 32 2#32))
              (broadcastInDim S1x64 ![1] bcast_S64_S1x64_1 (iotaInDim S64 32 0))))) : Vec Ideal S128x64 .f32) := by
    dsimp only [V4, W4, W3, W2, W1, W0]; after_results_simp
  rw [e]
  show FloatOps.uitofp (F := Ideal) .f32 (IntOp.cmpi .eq
      ((broadcastInDim S128x64 ![0, 1] bcast_S128x1_S128x64_0_1
        (broadcastInDim S128x1 ![0] bcast_S128_S128x1_0 (iotaInDim S128 32 0)) : IVec S128x64 32) (ix2 d f))
      ((broadcastInDim S128x64 ![0, 1] bcast_S1x64_S128x64_0_1
        (muli (broadcastInDim S1x64 ![] bcast_S_S1x64 (constantI S_ 32 2#32))
          (broadcastInDim S1x64 ![1] bcast_S64_S1x64_1 (iotaInDim S64 32 0))) : IVec S128x64 32) (ix2 d f))) = _
  rw [rowWord_apply, ofRow_apply]
  show FloatOps.uitofp (F := Ideal) .f32 (IntOp.cmpi .eq (BitVec.ofNat 32 d.val)
      (IntOp.muli ((broadcastInDim S1x64 ![] bcast_S_S1x64 (constantI S_ 32 2#32) : IVec S1x64 32) (Predicate.i1q f))
        ((broadcastInDim S1x64 ![1] bcast_S64_S1x64_1 (iotaInDim S64 32 0) : IVec S1x64 32) (Predicate.i1q f)))) = _
  rw [splatRow_apply, colWord_apply, uitofp_cmpi_eq]
  exact if_congr (word_even_iff d f) rfl rfl

theorem v59_apply (d : Fin 128) (f : Fin 64) : (V4 m ρ c main_v59 : Vec Ideal S128x64 .f32) (ix2 d f)
    = if d.val = 2 * f.val + 1 then (1 : EReal) else 0 := by
  have e : (V4 m ρ c main_v59 : Vec Ideal S128x64 .f32)
      = (uitofp (F := Ideal) .f32 (cmpi .eq
          (broadcastInDim S128x64 ![0, 1] bcast_S128x1_S128x64_0_1
            (broadcastInDim S128x1 ![0] bcast_S128_S128x1_0 (iotaInDim S128 32 0)))
          (broadcastInDim S128x64 ![0, 1] bcast_S1x64_S128x64_0_1
            (addi
              (muli (broadcastInDim S1x64 ![] bcast_S_S1x64 (constantI S_ 32 2#32))
                (broadcastInDim S1x64 ![1] bcast_S64_S1x64_1 (iotaInDim S64 32 0)))
              (broadcastInDim S1x64 ![] bcast_S_S1x64 (constantI S_ 32 1#32))))) : Vec Ideal S128x64 .f32) := by
    dsimp only [V4, W4, W3, W2, W1, W0]; after_results_simp
  rw [e]
  show FloatOps.uitofp (F := Ideal) .f32 (IntOp.cmpi .eq
      ((broadcastInDim S128x64 ![0, 1] bcast_S128x1_S128x64_0_1
        (broadcastInDim S128x1 ![0] bcast_S128_S128x1_0 (iotaInDim S128 32 0)) : IVec S128x64 32) (ix2 d f))
      ((broadcastInDim S128x64 ![0, 1] bcast_S1x64_S128x64_0_1
        (addi
          (muli (broadcastInDim S1x64 ![] bcast_S_S1x64 (constantI S_ 32 2#32))
            (broadcastInDim S1x64 ![1] bcast_S64_S1x64_1 (iotaInDim S64 32 0)))
          (broadcastInDim S1x64 ![] bcast_S_S1x64 (constantI S_ 32 1#32))) : IVec S128x64 32) (ix2 d f))) = _
  rw [rowWord_apply, ofRow_apply]
  show FloatOps.uitofp (F := Ideal) .f32 (IntOp.cmpi .eq (BitVec.ofNat 32 d.val)
      (IntOp.addi
        (IntOp.muli ((broadcastInDim S1x64 ![] bcast_S_S1x64 (constantI S_ 32 2#32) : IVec S1x64 32) (Predicate.i1q f))
          ((broadcastInDim S1x64 ![1] bcast_S64_S1x64_1 (iotaInDim S64 32 0) : IVec S1x64 32) (Predicate.i1q f)))
        ((broadcastInDim S1x64 ![] bcast_S_S1x64 (constantI S_ 32 1#32) : IVec S1x64 32) (Predicate.i1q f)))) = _
  rw [splatRow_apply, splatRow_apply, colWord_apply, uitofp_cmpi_eq]
  exact if_congr (word_odd_iff d f) rfl rfl

/-! ## At the second kernel's entry: the first kernel wrote none of the tables the second reads -/

theorem V5_arg0 : V5 m ρ c main_arg0 = V4 m ρ c main_arg0 :=
  W5_of_ne m ρ c main_arg0 (by decide)
theorem V5_arg8 : V5 m ρ c main_arg8 = V4 m ρ c main_arg8 :=
  W5_of_ne m ρ c main_arg8 (by decide)
theorem V5_v35 : V5 m ρ c main_v35 = V4 m ρ c main_v35 :=
  W5_of_ne m ρ c main_v35 (by decide)
theorem V5_v36 : V5 m ρ c main_v36 = V4 m ρ c main_v36 :=
  W5_of_ne m ρ c main_v36 (by decide)
theorem V5_v38 : V5 m ρ c main_v38 = V4 m ρ c main_v38 :=
  W5_of_ne m ρ c main_v38 (by decide)
theorem V5_v41 : V5 m ρ c main_v41 = V4 m ρ c main_v41 :=
  W5_of_ne m ρ c main_v41 (by decide)
theorem V5_v51 : V5 m ρ c main_v51 = V4 m ρ c main_v51 :=
  (W5_arr m ρ c 3).trans (((dat0 (V4 m ρ) c).arrAt_in 3 rfl _).trans (A_eq0 (V4 m ρ) c 3))
theorem V5_v59 : V5 m ρ c main_v59 = V4 m ρ c main_v59 :=
  (W5_arr m ρ c 4).trans (((dat0 (V4 m ρ) c).arrAt_in 4 rfl _).trans (A_eq0 (V4 m ρ) c 4))

end Cert.KernelIdeal.HostValues

end
-- ==== Proof.KValue.lean ====
/-
  The key scores as the first kernel leaves them. Grid point t of 128 handles rows 4096 t … 4096 t + 4095 of K and
  writes the same rows of the result; every other operand is a whole table, the same at every point. With the tables'
  contents known (the rotated probes, the transposed magnitude weights, the two selectors, the bias), what point t
  writes back is rows 4096 t … of the specification's key scores: the two selector contractions pick channels 2f and
  2f + 1 of the row. The 128 blocks tile the result, so the whole array is the specification's.
-/
import proofs.«110540_j22608707846768_1_alg».proof.Proof.Gen.KernelIdeal.Frame
import proofs.«110540_j22608707846768_1_alg».proof.Proof.Spec
import proofs.«110540_j22608707846768_1_alg».proof.Proof.KBody
import proofs.«110540_j22608707846768_1_alg».proof.Proof.HostValues
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The key scores of the launch memory's arguments. -/
abbrev keyScores (c : Dev nD) : Vec Ideal S524288x128 .f32 :=
  Cert.Spec.GK (m ((c : Thread nD τ).loc main_arg1))
    (Cert.ReferenceIdeal.Read.val_main_v34 (F := Ideal) (m ((c : Thread nD τ).loc main_arg2)) (m ((c : Thread nD τ).loc main_arg3)))
    (m ((c : Thread nD τ).loc main_arg4)) (m ((c : Thread nD τ).loc main_arg5))

/-- One grid point's payload, from what its blocks hold: rows `T * 4096 + p` of the key scores. -/
theorem point_eq (K : Vec Ideal S524288x128 .f32) (rpt : Vec Ideal S128x128 .f32) (a4 : Vec Ideal S128x64 .f32)
    (a5 : Vec Ideal S128 .f32)
    (x0 : Vec Ideal S4096x128 .f32) (x1 : Vec Ideal S128x128 .f32) (x2 : Vec Ideal S64x128 .f32)
    (x3 x4 : Vec Ideal S128x64 .f32) (x5 : Vec Ideal S128 .f32)
    (p : Fin 4096) (q : Fin 128) (r : Fin 524288)
    (h0 : ∀ d : Fin 128, x0 (ix2 p d) = K (ix2 r d))
    (h1 : ∀ (d : Fin 128) (b : Fin 128), x1 (ix2 d b) = rpt (ix2 d b))
    (h2 : ∀ (f : Fin 64) (b : Fin 128), x2 (ix2 f b) = a4 (ix2 b f))
    (h3 : ∀ (d : Fin 128) (f : Fin 64), x3 (ix2 d f) = if d.val = 2 * f.val then (1 : EReal) else 0)
    (h4 : ∀ (d : Fin 128) (f : Fin 64), x4 (ix2 d f) = if d.val = 2 * f.val + 1 then (1 : EReal) else 0)
    (h5 : ∀ b : Fin 128, x5 (ix1 b) = a5 (ix1 b)) :
    k0_pay1 (F := Ideal) x0 x1 x3 x4 x2 x5 (ix2 p q) = Cert.Spec.GK K rpt a4 a5 (ix2 r q) := by
  rw [Cert.KernelIdeal.KBody.pay_apply]
  unfold Cert.Spec.GK Cert.Spec.keyLogit Cert.Spec.pairMag
  have e3 : ∀ f : Fin 64, (∑ d : Fin 128, x0 (ix2 p d) * x3 (ix2 d f)) = K (ix2 r (Cert.Spec.ev f)) := fun f => by
    rw [← Cert.Spec.sum_sel_even (fun d => K (ix2 r d)) f]
    exact Finset.sum_congr rfl fun d _ => by rw [h0, h3]
  have e4 : ∀ f : Fin 64, (∑ d : Fin 128, x0 (ix2 p d) * x4 (ix2 d f)) = K (ix2 r (Cert.Spec.od f)) := fun f => by
    rw [← Cert.Spec.sum_sel_odd (fun d => K (ix2 r d)) f]
    exact Finset.sum_congr rfl fun d _ => by rw [h0, h4]
  simp only [e3, e4]
  simp only [h0, h1, h2, h5]

/-- The index maps over the grid: the row-blocked operands move with the point, the tables stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The row block at point `t`: rows `4096 t + p` of the keys. -/
theorem blk0_apply (c : Dev nD) (t : Fin cfg0.N) (p : Fin 4096) (d : Fin 128) (r : Fin 524288) (hr : r.val = t.val * 4096 + p.val) :
    (iblk0 (V4 m ρ) c 0 t : Vec Ideal S4096x128 .f32) (ix2 p d)
      = (m ((c : Thread nD τ).loc main_arg1) : Vec Ideal S524288x128 .f32) (ix2 r d) := by
  obtain ⟨e00, e01, e10, e11, e20, e21, e30, e31, e40, e41, e50, e60, e61⟩ := idx_facts t
  have h0 : p.val < 4096 := p.isLt
  have h1 : d.val < 128 := d.isLt
  unfold iblk0
  rw [View.read_apply]
  show V4 m ρ c main_arg1 _ = _
  rw [Cert.KernelIdeal.HostValues.arg1_eq]
  refine congrArg _ (funext fun a => Fin.ext ?_)
  match a with
  | ⟨0, _⟩ => show win0_0.index t (0 : Fin 2) * 4096 + 1 * p.val = r.val; omega
  | ⟨1, _⟩ => show win0_0.index t (1 : Fin 2) * 128 + 1 * d.val = d.val; omega

/-- The rotated probe table, whole at every point. -/
theorem blk1_apply (c : Dev nD) (t : Fin cfg0.N) (d : Fin 128) (b : Fin 128) :
    (iblk0 (V4 m ρ) c 1 t : Vec Ideal S128x128 .f32) (ix2 d b) = Cert.ReferenceIdeal.Read.val_main_v34 (F := Ideal) (m ((c : Thread nD τ).loc main_arg2)) (m ((c : Thread nD τ).loc main_arg3)) (ix2 d b) := by
  obtain ⟨e00, e01, e10, e11, e20, e21, e30, e31, e40, e41, e50, e60, e61⟩ := idx_facts t
  have h0 : d.val < 128 := d.isLt
  have h1 : b.val < 128 := b.isLt
  unfold iblk0
  rw [View.read_apply]
  show V4 m ρ c main_v34 _ = _
  rw [Cert.KernelIdeal.HostValues.v34_eq]
  refine congrArg _ (funext fun a => Fin.ext ?_)
  match a with
  | ⟨0, _⟩ => show win0_1.index t (0 : Fin 2) * 128 + 1 * d.val = d.val; omega
  | ⟨1, _⟩ => show win0_1.index t (1 : Fin 2) * 128 + 1 * b.val = b.val; omega

/-- The transposed magnitude weights, whole at every point. -/
theorem blk2_apply (c : Dev nD) (t : Fin cfg0.N) (f : Fin 64) (b : Fin 128) :
    (iblk0 (V4 m ρ) c 2 t : Vec Ideal S64x128 .f32) (ix2 f b) = (m ((c : Thread nD τ).loc main_arg4) : Vec Ideal S128x64 .f32) (ix2 b f) := by
  obtain ⟨e00, e01, e10, e11, e20, e21, e30, e31, e40, e41, e50, e60, e61⟩ := idx_facts t
  have h0 : f.val < 64 := f.isLt
  have h1 : b.val < 128 := b.isLt
  unfold iblk0
  rw [View.read_apply]
  show V4 m ρ c main_v37 _ = _
  rw [← Cert.KernelIdeal.HostValues.v37_apply m ρ c f b]
  refine congrArg _ (funext fun a => Fin.ext ?_)
  match a with
  | ⟨0, _⟩ => show win0_2.index t (0 : Fin 2) * 64 + 1 * f.val = f.val; omega
  | ⟨1, _⟩ => show win0_2.index t (1 : Fin 2) * 128 + 1 * b.val = b.val; omega

/-- The even selector, whole at every point. -/
theorem blk3_apply (c : Dev nD) (t : Fin cfg0.N) (d : Fin 128) (f : Fin 64) :
    (iblk0 (V4 m ρ) c 3 t : Vec Ideal S128x64 .f32) (ix2 d f) = if d.val = 2 * f.val then (1 : EReal) else 0 := by
  obtain ⟨e00, e01, e10, e11, e20, e21, e30, e31, e40, e41, e50, e60, e61⟩ := idx_facts t
  have h0 : d.val < 128 := d.isLt
  have h1 : f.val < 64 := f.isLt
  unfold iblk0
  rw [View.read_apply]
  show V4 m ρ c main_v51 _ = _
  rw [← Cert.KernelIdeal.HostValues.v51_apply m ρ c d f]
  refine congrArg _ (funext fun a => Fin.ext ?_)
  match a with
  | ⟨0, _⟩ => show win0_3.index t (0 : Fin 2) * 128 + 1 * d.val = d.val; omega
  | ⟨1, _⟩ => show win0_3.index t (1 : Fin 2) * 64 + 1 * f.val = f.val; omega

/-- The odd selector, whole at every point. -/
theorem blk4_apply (c : Dev nD) (t : Fin cfg0.N) (d : Fin 128) (f : Fin 64) :
    (iblk0 (V4 m ρ) c 4 t : Vec Ideal S128x64 .f32) (ix2 d f) = if d.val = 2 * f.val + 1 then (1 : EReal) else 0 := by
  obtain ⟨e00, e01, e10, e11, e20, e21, e30, e31, e40, e41, e50, e60, e61⟩ := idx_facts t
  have h0 : d.val < 128 := d.isLt
  have h1 : f.val < 64 := f.isLt
  unfold iblk0
  rw [View.read_apply]
  show V4 m ρ c main_v59 _ = _
  rw [← Cert.KernelIdeal.HostValues.v59_apply m ρ c d f]
  refine congrArg _ (funext fun a => Fin.ext ?_)
  match a with
  | ⟨0, _⟩ => show win0_4.index t (0 : Fin 2) * 128 + 1 * d.val = d.val; omega
  | ⟨1, _⟩ => show win0_4.index t (1 : Fin 2) * 64 + 1 * f.val = f.val; omega

/-- The bias, whole at every point. -/
theorem blk5_apply (c : Dev nD) (t : Fin cfg0.N) (b : Fin 128) :
    (iblk0 (V4 m ρ) c 5 t : Vec Ideal S128 .f32) (ix1 b) = (m ((c : Thread nD τ).loc main_arg5) : Vec Ideal S128 .f32) (ix1 b) := by
  obtain ⟨e00, e01, e10, e11, e20, e21, e30, e31, e40, e41, e50, e60, e61⟩ := idx_facts t
  have h0 : b.val < 128 := b.isLt
  unfold iblk0
  rw [View.read_apply]
  show V4 m ρ c main_arg5 _ = _
  rw [Cert.KernelIdeal.HostValues.arg5_eq]
  refine congrArg _ (funext fun a => Fin.ext ?_)
  match a with
  | ⟨0, _⟩ => show win0_5.index t (0 : Fin 1) * 128 + 1 * b.val = b.val; omega

/-- What point `t` writes back is block `t` of the key scores. -/
theorem flushed_eq (c : Dev nD) (t : Fin cfg0.N) :
    (dat0 (V4 m ρ) c).flushed 6 t = ((cfg0.win 6).blk t).view.read (Elt Ideal) (keyScores m c) := by
  show (cfg0.win 6).cut (grid0.coords t) ((dat0 (V4 m ρ) c).after 6 t) = _
  rw [after0_6]
  unfold out0_6
  rw [View.canon_unit_zero hz]
  simp only [View.ld_unit_zero (S := S4096x128) hz, View.ld_unit_zero (S := S128x128) hz, View.ld_unit_zero (S := S64x128) hz,
    View.ld_unit_zero (S := S128x64) hz, View.ld_unit_zero (S := S128) hz1]
  obtain ⟨e00, e01, e10, e11, e20, e21, e30, e31, e40, e41, e50, e60, e61⟩ := idx_facts t
  have ht : t.val < 128 := lt_of_lt_of_eq t.isLt (N_0 : cfg0.N = 128)
  funext j
  obtain ⟨p, q, rfl⟩ : ∃ (p : Fin 4096) (q : Fin 128), j = ix2 p q := ⟨j 0, j 1, eq_ix2 j⟩
  have hp : p.val < 4096 := p.isLt
  have hq : q.val < 128 := q.isLt
  rw [View.read_apply]
  have hemb : ((View.whole main_v60).slice ((win0 6).rect t)).emb (ix2 p q) = ix2 (⟨t.val * 4096 + p.val, by omega⟩ : Fin 524288) q := by
    funext a; apply Fin.ext
    match a with
    | ⟨0, _⟩ => show win0_6.index t (0 : Fin 2) * 4096 + 1 * p.val = t.val * 4096 + p.val; omega
    | ⟨1, _⟩ => show win0_6.index t (1 : Fin 2) * 128 + 1 * q.val = q.val; omega
  rw [hemb]
  show k0_pay1 _ _ _ _ _ _ (ix2 p q) = _
  exact point_eq _ _ _ _ _ _ _ _ _ _ p q _ (fun d => blk0_apply m ρ c t p d _ rfl) (fun d b => blk1_apply m ρ c t d b)
    (fun f b => blk2_apply m ρ c t f b) (fun d f => blk3_apply m ρ c t d f) (fun d f => blk4_apply m ρ c t d f)
    (fun b => blk5_apply m ρ c t b)

/-- An index of the result is in point `t`'s block iff each coordinate is in the block's range on its axis. -/
theorem mem_blk (t : Fin cfg0.N) (i : S524288x128.Idx) :
    i ∈ ((cfg0.win 6).blk t).view.set ↔ ∀ a : Fin 2, win0_6.index t a * S4096x128.size a ≤ (i a).val
      ∧ (i a).val < win0_6.index t a * S4096x128.size a + S4096x128.size a := by
  show i ∈ ((View.whole main_v60).slice (win0_6.rect t)).set ↔ _
  rw [View.set_slice_whole, Rect.mem_set_unit]
  exact Iff.rfl

/-- Every row of the result is in the block of the point its row number divided by 4096 names. -/
theorem cover (i : S524288x128.Idx) : ∃ t : Fin cfg0.N, (cfg0.win 6).flush t = true ∧ i ∈ ((cfg0.win 6).blk t).view.set := by
  have hi0 : (i 0).val < 524288 := (i 0).isLt
  have hi1 : (i 1).val < 128 := (i 1).isLt
  let t : Fin cfg0.N := ⟨(i 0).val / 4096, lt_of_lt_of_eq (by omega : (i 0).val / 4096 < 128) (N_0 : cfg0.N = 128).symm⟩
  obtain ⟨-, -, -, -, -, -, -, -, -, -, -, e60, e61⟩ := idx_facts t
  have tv : t.val = (i 0).val / 4096 := rfl
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 128 ≤ (i 1).val ∧ (i 1).val < win0_6.index t (1 : Fin 2) * 128 + 128; omega

/-- The result array after the first kernel: the key scores. -/
theorem final (c : Dev nD) : (dat0 (V4 m ρ) c).arrAt 6 cfg0.N = keyScores m c :=
  (dat0 (V4 m ρ) c).arrAt_eq_of_cover 6 (keyScores m c) (fun t _ => flushed_eq m ρ c t) (cover)

end Cert.KernelIdeal.KValue

end
-- ==== Proof.QBody.lean ====
/-
  What the query kernel's body stores, entry by entry, at the ideal values: for the block's row p and bin q, with the
  row scaled to unit length first and its pairs picked by contraction with the two selector tables, the pair distances
  from the rotated probes contracted with the distance weights, plus the pair magnitudes contracted with the magnitude
  weights, plus the bias.
-/
import proofs.«110540_j22608707846768_1_alg».proof.Proof.Gen.KernelIdeal.Skeleton
import proofs.«110540_j22608707846768_1_alg».proof.Proof.Spec
import proofs.«110540_j22608707846768_1_alg».proof.Proof.LibMatmul
import Idealize.ShloMosaic.Lib.ValueLayout

noncomputable section

namespace Cert.KernelIdeal.QBody

open Cert.KernelIdeal Idealize.ShloMosaic Idealize.ShloMosaic.ValueIdx

/-- The scaled row's contraction with a selector table, at pair `f`. -/
def picked (x0 : Vec Ideal S256x128 .f32) (P : Vec Ideal S128x64 .f32) (p : Fin 256) (f : Fin 64) : EReal :=
  ∑ d : Fin 128, Cert.Spec.unitRow (fun d' => x0 (ix2 p d')) d * P (ix2 d f)

/-! ## Layout operations read at an index: the column forms -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b, c]` slab broadcast to `[a, b, c]` reads, at `(p, i, j)`, the slab at `(i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An `[a, b, 1]` array broadcast to `[a, b, c]` reads, at `(p, i, j)`, the operand at `(p, i)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (i : Fin b) (j : Fin c) :
    broadcastTo ⟨3, ![a, b, c]⟩ v h (ix3 p i j) = v (ix3 p i (0 : Fin 1)) := by
  refine broadcastTo_apply v h (ix3 p i j) (ix3 p i (0 : Fin 1)) fun ax => ?_
  match ax with
  | ⟨0, _⟩ =>
    show p.val = if a = 1 then 0 else p.val
    split
    · have := p.isLt; omega
    · rfl
  | ⟨1, _⟩ =>
    show i.val = if b = 1 then 0 else i.val
    split
    · have := i.isLt; omega
    · rfl
  | ⟨2, _⟩ => rfl

end Layout

/-! ## The scaled row -/

/-- A square root of a vector, at an index. -/
theorem sqrt_apply {s : Shape} {φ : FTy} (a : FVec Ideal s φ) (i : s.Idx) : sqrt a i = Ideal.sqrt (a i) := rfl

/-- The sum over the channels of a `[256, 128]` array, at row `p`. -/
theorem rowSum_apply (src : FVec Ideal S256x128 .f32) (h : S256x128.Reduces [1] S256) (hφ : FKind.Formats .f32)
    (hacc : (0x00000000#32 : BitVec 32) = 0x00000000#32) (p : Fin 256) :
    multiReduction .add [1] S256 src 0x00000000#32 h hφ hacc (ix1 p) = ∑ d : Fin 128, src (ix2 p d) := by
  refine (Ideal.multiReduction_add_single src 0x00000000#32 h hφ hacc (ix1 p)).trans ?_
  refine Finset.sum_congr rfl fun d _ => congrArg src ?_
  funext a
  apply Fin.ext
  match a with
  | ⟨0, _⟩ => rfl
  | ⟨1, _⟩ => rfl

/-- The block's row `p` divided by its length plus `eps`, at channel `d`. -/
theorem pay2_apply (x0 : Vec Ideal S256x128 .f32) (p : Fin 256) (d : Fin 128) :
    Gen.k1_pay2 (F := Ideal) x0 (ix2 p d) = Cert.Spec.unitRow (fun d' => x0 (ix2 p d')) d := by
  unfold Gen.k1_pay2 Cert.Spec.unitRow
  dsimp only
  rw [divf_apply, broadcastTo_a1_ab_apply, addf_apply, sqrt_apply, shapeCast_a_a1_apply, rowSum_apply, broadcast_apply]
  rfl

/-! ## The picked pairs -/

/-- The scaled row contracted with the first selector table is `picked` of it. -/
theorem pay3_apply (x0 : Vec Ideal S256x128 .f32) (P : Vec Ideal S128x64 .f32) (p : Fin 256) (f : Fin 64) :
    Gen.k1_pay3 (F := Ideal) x0 P (ix2 p f) = picked x0 P p f := by
  unfold Gen.k1_pay3 picked
  rw [shapeCast_self]
  refine (Cert.LibMatmul.matmul_rows_cols dot_S256x128_S128x64_S256x64_1_0_0_1_n_n rfl rfl rfl rfl rfl rfl
    (some .fp32) (Gen.k1_pay2 (F := Ideal) x0) P p f).trans ?_
  refine Finset.sum_congr rfl fun d _ => ?_
  rw [pay2_apply]

/-- The scaled row contracted with the second selector table is `picked` of it. -/
theorem pay4_apply (x0 : Vec Ideal S256x128 .f32) (P : Vec Ideal S128x64 .f32) (p : Fin 256) (f : Fin 64) :
    Gen.k1_pay4 (F := Ideal) x0 P (ix2 p f) = picked x0 P p f := by
  unfold Gen.k1_pay4 picked
  rw [shapeCast_self]
  refine (Cert.LibMatmul.matmul_rows_cols dot_S256x128_S128x64_S256x64_1_0_0_1_n_n rfl rfl rfl rfl rfl rfl
    (some .fp32) (Gen.k1_pay2 (F := Ideal) x0) P p f).trans ?_
  refine Finset.sum_congr rfl fun d _ => ?_
  rw [pay2_apply]

/-! ## The pair distances -/

/-- The distance of the picked pair `f` of row `p` from the rotated probe of bin `q`. -/
theorem pay5_apply (x0 : Vec Ideal S256x128 .f32) (pe po : Vec Ideal S128x64 .f32) (r0t r1t : Vec Ideal S64x128 .f32)
    (p : Fin 256) (f : Fin 64) (q : Fin 128) :
    Gen.k1_pay5 (F := Ideal) x0 pe po r0t r1t (ix3 p f q)
      = Ideal.sqrt ((r0t (ix2 f q) - picked x0 pe p f) * (r0t (ix2 f q) - picked x0 pe p f)
          + (r1t (ix2 f q) - picked x0 po p f) * (r1t (ix2 f q) - picked x0 po p f) + Cert.Spec.eps) := by
  unfold Gen.k1_pay5
  simp only [sqrt_apply, addf_apply, mulf_apply, subf_apply, broadcast_apply, broadcastTo_1bc_abc_apply,
    broadcastTo_ab1_abc_apply, shapeCast_self, shapeCast_ab_1ab_apply, shapeCast_ab_ab1_apply, pay3_apply, pay4_apply]
  rfl

/-- The distance weights with a leading unit axis, at `(0, f, q)`. -/
theorem pay6_apply (et : Vec Ideal S64x128 .f32) (u : Fin 1) (f : Fin 64) (q : Fin 128) :
    Gen.k1_pay6 (F := Ideal) et (ix3 u f q) = et (ix2 f q) := by
  unfold Gen.k1_pay6
  rw [shapeCast_self, shapeCast_ab_1ab_apply]

/-! ## The stored value -/

/-- The sum over the pairs of a `[256, 64, 128]` array, at row `p` and bin `q`. -/
theorem pairSum_apply (src : FVec Ideal S256x64x128 .f32) (h : S256x64x128.Reduces [1] S256x128) (hφ : FKind.Formats .f32)
    (hacc : (0x00000000#32 : BitVec 32) = 0x00000000#32) (p : Fin 256) (q : Fin 128) :
    multiReduction .add [1] S256x128 src 0x00000000#32 h hφ hacc (ix2 p q) = ∑ f : Fin 64, src (ix3 p f q) := by
  refine (Ideal.multiReduction_add_single src 0x00000000#32 h hφ hacc (ix2 p q)).trans ?_
  refine Finset.sum_congr rfl fun f _ => congrArg src ?_
  funext a
  apply Fin.ext
  match a with
  | ⟨0, _⟩ => rfl
  | ⟨1, _⟩ => rfl
  | ⟨2, _⟩ => rfl

/-- What the query kernel stores at row `p` and bin `q`. -/
theorem pay_apply (x0 : Vec Ideal S256x128 .f32) (r0t r1t et wt : Vec Ideal S64x128 .f32) (b : Vec Ideal S128 .f32)
    (pe po : Vec Ideal S128x64 .f32) (p : Fin 256) (q : Fin 128) :
    Gen.k1_pay1 (F := Ideal) (Gen.k1_pay3 x0 pe) (Gen.k1_pay4 x0 po) (Gen.k1_pay5 x0 pe po r0t r1t) (Gen.k1_pay6 et) wt b (ix2 p q)
      = ((∑ f : Fin 64, Ideal.sqrt ((r0t (ix2 f q) - picked x0 pe p f) * (r0t (ix2 f q) - picked x0 pe p f)
              + (r1t (ix2 f q) - picked x0 po p f) * (r1t (ix2 f q) - picked x0 po p f) + Cert.Spec.eps) * et (ix2 f q))
          + ∑ f : Fin 64, Ideal.sqrt (picked x0 pe p f * picked x0 pe p f + picked x0 po p f * picked x0 po p f + Cert.Spec.eps) * wt (ix2 f q))
        + b (ix1 q) := by
  unfold Gen.k1_pay1
  rw [addf_apply, addf_apply, broadcastTo_1b_ab_apply, shapeCast_a_1a_apply, pairSum_apply, shapeCast_self]
  refine congrArg₂ (· + ·) (congrArg₂ (· + ·) ?_ ?_) rfl
  · refine Finset.sum_congr rfl fun f _ => ?_
    rw [mulf_apply, pay5_apply, broadcastTo_1bc_abc_apply, pay6_apply]
  · refine (Cert.LibMatmul.matmul_rows_cols dot_S256x64_S64x128_S256x128_1_0_0_1_n_n rfl rfl rfl rfl rfl rfl none
      _ _ p q).trans ?_
    refine Finset.sum_congr rfl fun f _ => ?_
    rw [truncf_apply, truncf_apply, sqrt_apply, addf_apply, addf_apply, mulf_apply, mulf_apply, broadcast_apply,
      pay3_apply, pay4_apply]
    rfl

end Cert.KernelIdeal.QBody

end
-- ==== Proof.QValue.lean ====
/-
  The query scores as the second kernel leaves them. Grid point t of 32 handles rows 256 t … 256 t + 255 of Q and
  writes the same rows of the result; every other operand is a whole table, the same at every point, and the first
  kernel left all of them as the host operations made them. With the tables' contents known (the two halves of the
  rotated probes and the two weight tables, transposed; the bias; the two selectors), what point t writes back is rows
  256 t … of the specification's query scores: the selector contractions pick channels 2f and 2f + 1 of the scaled
  row. The 32 blocks tile the result, so the whole array is the specification's.
-/
import proofs.«110540_j22608707846768_1_alg».proof.Proof.Gen.KernelIdeal.Frame
import proofs.«110540_j22608707846768_1_alg».proof.Proof.Spec
import proofs.«110540_j22608707846768_1_alg».proof.Proof.QBody
import proofs.«110540_j22608707846768_1_alg».proof.Proof.HostValues
import Idealize.ShloMosaic.Lib.Pipeline.Value
import Idealize.ShloMosaic.Lib.ValueIdx

set_option maxRecDepth 16384

noncomputable section

namespace Cert.KernelIdeal.QValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The query scores of the launch memory's arguments. -/
abbrev queryScores (c : Dev nD) : Vec Ideal S8192x128 .f32 :=
  Cert.Spec.GQ (m ((c : Thread nD τ).loc main_arg0))
    (Cert.ReferenceIdeal.Read.val_main_v18 (F := Ideal) (m ((c : Thread nD τ).loc main_arg2)) (m ((c : Thread nD τ).loc main_arg3)))
    (Cert.ReferenceIdeal.Read.val_main_v29 (F := Ideal) (m ((c : Thread nD τ).loc main_arg2)) (m ((c : Thread nD τ).loc main_arg3)))
    (Cert.ReferenceIdeal.Read.val_main_v70 (F := Ideal) (m ((c : Thread nD τ).loc main_arg6)))
    (m ((c : Thread nD τ).loc main_arg7)) (m ((c : Thread nD τ).loc main_arg8))

/-- One grid point's payload, from what its blocks hold: row `r` of the query scores. -/
theorem point_eq (Q : Vec Ideal S8192x128 .f32) (R0 R1 E W : Vec Ideal S128x64 .f32) (a8 : Vec Ideal S128 .f32)
    (x0 : Vec Ideal S256x128 .f32) (x1 x2 x3 x4 : Vec Ideal S64x128 .f32) (x5 : Vec Ideal S128 .f32)
    (x6 x7 : Vec Ideal S128x64 .f32)
    (p : Fin 256) (q : Fin 128) (r : Fin 8192)
    (h0 : ∀ d : Fin 128, x0 (ix2 p d) = Q (ix2 r d))
    (h1 : ∀ (f : Fin 64) (b : Fin 128), x1 (ix2 f b) = R0 (ix2 b f))
    (h2 : ∀ (f : Fin 64) (b : Fin 128), x2 (ix2 f b) = R1 (ix2 b f))
    (h3 : ∀ (f : Fin 64) (b : Fin 128), x3 (ix2 f b) = E (ix2 b f))
    (h4 : ∀ (f : Fin 64) (b : Fin 128), x4 (ix2 f b) = W (ix2 b f))
    (h5 : ∀ b : Fin 128, x5 (ix1 b) = a8 (ix1 b))
    (h6 : ∀ (d : Fin 128) (f : Fin 64), x6 (ix2 d f) = if d.val = 2 * f.val then (1 : EReal) else 0)
    (h7 : ∀ (d : Fin 128) (f : Fin 64), x7 (ix2 d f) = if d.val = 2 * f.val + 1 then (1 : EReal) else 0) :
    k1_pay1 (F := Ideal) (k1_pay3 x0 x6) (k1_pay4 x0 x7) (k1_pay5 x0 x6 x7 x1 x2) (k1_pay6 x3) x4 x5 (ix2 p q)
      = Cert.Spec.GQ Q R0 R1 E W a8 (ix2 r q) := by
  rw [Cert.KernelIdeal.QBody.pay_apply]
  unfold Cert.Spec.GQ Cert.Spec.queryLogit Cert.Spec.pairDist Cert.Spec.pairMag
  have hrow : (fun d' : Fin 128 => x0 (ix2 p d')) = fun d => Q (ix2 r d) := funext h0
  have e6 : ∀ f : Fin 64, Cert.KernelIdeal.QBody.picked x0 x6 p f = Cert.Spec.unitRow (fun d => Q (ix2 r d)) (Cert.Spec.ev f) := fun f => by
    unfold Cert.KernelIdeal.QBody.picked
    rw [hrow, ← Cert.Spec.sum_sel_even (Cert.Spec.unitRow fun d => Q (ix2 r d)) f]
    exact Finset.sum_congr rfl fun d _ => by rw [h6]
  have e7 : ∀ f : Fin 64, Cert.KernelIdeal.QBody.picked x0 x7 p f = Cert.Spec.unitRow (fun d => Q (ix2 r d)) (Cert.Spec.od f) := fun f => by
    unfold Cert.KernelIdeal.QBody.picked
    rw [hrow, ← Cert.Spec.sum_sel_odd (Cert.Spec.unitRow fun d => Q (ix2 r d)) f]
    exact Finset.sum_congr rfl fun d _ => by rw [h7]
  simp only [e6, e7, h1, h2, h3, h4, h5]

/-- The index maps over the grid: the row-blocked operands move with the point, the tables stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The row block at point `t`: rows `256 t + p` of the queries. -/
theorem blk0_apply (c : Dev nD) (t : Fin cfg1.N) (p : Fin 256) (d : Fin 128) (r : Fin 8192) (hr : r.val = t.val * 256 + p.val) :
    (iblk1 (V5 m ρ) c 0 t : Vec Ideal S256x128 .f32) (ix2 p d)
      = (m ((c : Thread nD τ).loc main_arg0) : Vec Ideal S8192x128 .f32) (ix2 r d) := by
  obtain ⟨e00, e01, e10, e11, e20, e21, e30, e31, e40, e41, e50, e60, e61, e70, e71, e80, e81⟩ := idx_facts t
  have h0 : p.val < 256 := p.isLt
  have h1 : d.val < 128 := d.isLt
  unfold iblk1
  rw [View.read_apply]
  show V5 m ρ c main_arg0 _ = _
  rw [Cert.KernelIdeal.HostValues.V5_arg0, Cert.KernelIdeal.HostValues.arg0_eq]
  refine congrArg _ (funext fun a => Fin.ext ?_)
  match a with
  | ⟨0, _⟩ => show win1_0.index t (0 : Fin 2) * 256 + 1 * p.val = r.val; omega
  | ⟨1, _⟩ => show win1_0.index t (1 : Fin 2) * 128 + 1 * d.val = d.val; omega

/-- The first half of the rotated probes, transposed, whole at every point. -/
theorem blk1_apply (c : Dev nD) (t : Fin cfg1.N) (f : Fin 64) (b : Fin 128) :
    (iblk1 (V5 m ρ) c 1 t : Vec Ideal S64x128 .f32) (ix2 f b) = Cert.ReferenceIdeal.Read.val_main_v18 (F := Ideal) (m ((c : Thread nD τ).loc main_arg2)) (m ((c : Thread nD τ).loc main_arg3)) (ix2 b f) := by
  obtain ⟨e00, e01, e10, e11, e20, e21, e30, e31, e40, e41, e50, e60, e61, e70, e71, e80, e81⟩ := idx_facts t
  have h0 : f.val < 64 := f.isLt
  have h1 : b.val < 128 := b.isLt
  unfold iblk1
  rw [View.read_apply]
  show V5 m ρ c main_v35 _ = _
  rw [Cert.KernelIdeal.HostValues.V5_v35, ← Cert.KernelIdeal.HostValues.v35_apply m ρ c f b]
  refine congrArg _ (funext fun a => Fin.ext ?_)
  match a with
  | ⟨0, _⟩ => show win1_1.index t (0 : Fin 2) * 64 + 1 * f.val = f.val; omega
  | ⟨1, _⟩ => show win1_1.index t (1 : Fin 2) * 128 + 1 * b.val = b.val; omega

/-- The second half of the rotated probes, transposed, whole at every point. -/
theorem blk2_apply (c : Dev nD) (t : Fin cfg1.N) (f : Fin 64) (b : Fin 128) :
    (iblk1 (V5 m ρ) c 2 t : Vec Ideal S64x128 .f32) (ix2 f b) = Cert.ReferenceIdeal.Read.val_main_v29 (F := Ideal) (m ((c : Thread nD τ).loc main_arg2)) (m ((c : Thread nD τ).loc main_arg3)) (ix2 b f) := by
  obtain ⟨e00, e01, e10, e11, e20, e21, e30, e31, e40, e41, e50, e60, e61, e70, e71, e80, e81⟩ := idx_facts t
  have h0 : f.val < 64 := f.isLt
  have h1 : b.val < 128 := b.isLt
  unfold iblk1
  rw [View.read_apply]
  show V5 m ρ c main_v36 _ = _
  rw [Cert.KernelIdeal.HostValues.V5_v36, ← Cert.KernelIdeal.HostValues.v36_apply m ρ c f b]
  refine congrArg _ (funext fun a => Fin.ext ?_)
  match a with
  | ⟨0, _⟩ => show win1_2.index t (0 : Fin 2) * 64 + 1 * f.val = f.val; omega
  | ⟨1, _⟩ => show win1_2.index t (1 : Fin 2) * 128 + 1 * b.val = b.val; omega

/-- The distance weights, transposed, whole at every point. -/
theorem blk3_apply (c : Dev nD) (t : Fin cfg1.N) (f : Fin 64) (b : Fin 128) :
    (iblk1 (V5 m ρ) c 3 t : Vec Ideal S64x128 .f32) (ix2 f b) = Cert.ReferenceIdeal.Read.val_main_v70 (F := Ideal) (m ((c : Thread nD τ).loc main_arg6)) (ix2 b f) := by
  obtain ⟨e00, e01, e10, e11, e20, e21, e30, e31, e40, e41, e50, e60, e61, e70, e71, e80, e81⟩ := idx_facts t
  have h0 : f.val < 64 := f.isLt
  have h1 : b.val < 128 := b.isLt
  unfold iblk1
  rw [View.read_apply]
  show V5 m ρ c main_v41 _ = _
  rw [Cert.KernelIdeal.HostValues.V5_v41, ← Cert.KernelIdeal.HostValues.v41_apply m ρ c f b]
  refine congrArg _ (funext fun a => Fin.ext ?_)
  match a with
  | ⟨0, _⟩ => show win1_3.index t (0 : Fin 2) * 64 + 1 * f.val = f.val; omega
  | ⟨1, _⟩ => show win1_3.index t (1 : Fin 2) * 128 + 1 * b.val = b.val; omega

/-- The magnitude weights, transposed, whole at every point. -/
theorem blk4_apply (c : Dev nD) (t : Fin cfg1.N) (f : Fin 64) (b : Fin 128) :
    (iblk1 (V5 m ρ) c 4 t : Vec Ideal S64x128 .f32) (ix2 f b) = (m ((c : Thread nD τ).loc main_arg7) : Vec Ideal S128x64 .f32) (ix2 b f) := by
  obtain ⟨e00, e01, e10, e11, e20, e21, e30, e31, e40, e41, e50, e60, e61, e70, e71, e80, e81⟩ := idx_facts t
  have h0 : f.val < 64 := f.isLt
  have h1 : b.val < 128 := b.isLt
  unfold iblk1
  rw [View.read_apply]
  show V5 m ρ c main_v38 _ = _
  rw [Cert.KernelIdeal.HostValues.V5_v38, ← Cert.KernelIdeal.HostValues.v38_apply m ρ c f b]
  refine congrArg _ (funext fun a => Fin.ext ?_)
  match a with
  | ⟨0, _⟩ => show win1_4.index t (0 : Fin 2) * 64 + 1 * f.val = f.val; omega
  | ⟨1, _⟩ => show win1_4.index t (1 : Fin 2) * 128 + 1 * b.val = b.val; omega

/-- The bias, whole at every point. -/
theorem blk5_apply (c : Dev nD) (t : Fin cfg1.N) (b : Fin 128) :
    (iblk1 (V5 m ρ) c 5 t : Vec Ideal S128 .f32) (ix1 b) = (m ((c : Thread nD τ).loc main_arg8) : Vec Ideal S128 .f32) (ix1 b) := by
  obtain ⟨e00, e01, e10, e11, e20, e21, e30, e31, e40, e41, e50, e60, e61, e70, e71, e80, e81⟩ := idx_facts t
  have h0 : b.val < 128 := b.isLt
  unfold iblk1
  rw [View.read_apply]
  show V5 m ρ c main_arg8 _ = _
  rw [Cert.KernelIdeal.HostValues.V5_arg8, Cert.KernelIdeal.HostValues.arg8_eq]
  refine congrArg _ (funext fun a => Fin.ext ?_)
  match a with
  | ⟨0, _⟩ => show win1_5.index t (0 : Fin 1) * 128 + 1 * b.val = b.val; omega

/-- The even selector, whole at every point. -/
theorem blk6_apply (c : Dev nD) (t : Fin cfg1.N) (d : Fin 128) (f : Fin 64) :
    (iblk1 (V5 m ρ) c 6 t : Vec Ideal S128x64 .f32) (ix2 d f) = if d.val = 2 * f.val then (1 : EReal) else 0 := by
  obtain ⟨e00, e01, e10, e11, e20, e21, e30, e31, e40, e41, e50, e60, e61, e70, e71, e80, e81⟩ := idx_facts t
  have h0 : d.val < 128 := d.isLt
  have h1 : f.val < 64 := f.isLt
  unfold iblk1
  rw [View.read_apply]
  show V5 m ρ c main_v51 _ = _
  rw [Cert.KernelIdeal.HostValues.V5_v51, ← Cert.KernelIdeal.HostValues.v51_apply m ρ c d f]
  refine congrArg _ (funext fun a => Fin.ext ?_)
  match a with
  | ⟨0, _⟩ => show win1_6.index t (0 : Fin 2) * 128 + 1 * d.val = d.val; omega
  | ⟨1, _⟩ => show win1_6.index t (1 : Fin 2) * 64 + 1 * f.val = f.val; omega

/-- The odd selector, whole at every point. -/
theorem blk7_apply (c : Dev nD) (t : Fin cfg1.N) (d : Fin 128) (f : Fin 64) :
    (iblk1 (V5 m ρ) c 7 t : Vec Ideal S128x64 .f32) (ix2 d f) = if d.val = 2 * f.val + 1 then (1 : EReal) else 0 := by
  obtain ⟨e00, e01, e10, e11, e20, e21, e30, e31, e40, e41, e50, e60, e61, e70, e71, e80, e81⟩ := idx_facts t
  have h0 : d.val < 128 := d.isLt
  have h1 : f.val < 64 := f.isLt
  unfold iblk1
  rw [View.read_apply]
  show V5 m ρ c main_v59 _ = _
  rw [Cert.KernelIdeal.HostValues.V5_v59, ← Cert.KernelIdeal.HostValues.v59_apply m ρ c d f]
  refine congrArg _ (funext fun a => Fin.ext ?_)
  match a with
  | ⟨0, _⟩ => show win1_7.index t (0 : Fin 2) * 128 + 1 * d.val = d.val; omega
  | ⟨1, _⟩ => show win1_7.index t (1 : Fin 2) * 64 + 1 * f.val = f.val; omega

/-- What point `t` writes back is block `t` of the query scores. -/
theorem flushed_eq (c : Dev nD) (t : Fin cfg1.N) :
    (dat1 (V5 m ρ) c).flushed 8 t = ((cfg1.win 8).blk t).view.read (Elt Ideal) (queryScores m c) := by
  show (cfg1.win 8).cut (grid1.coords t) ((dat1 (V5 m ρ) c).after 8 t) = _
  rw [after1_8]
  unfold out1_8
  rw [View.canon_unit_zero hz]
  simp only [View.ld_unit_zero (S := S256x128) hz, View.ld_unit_zero (S := S64x128) hz,
    View.ld_unit_zero (S := S128x64) hz, View.ld_unit_zero (S := S128) hz1]
  obtain ⟨e00, e01, e10, e11, e20, e21, e30, e31, e40, e41, e50, e60, e61, e70, e71, e80, e81⟩ := idx_facts t
  have ht : t.val < 32 := lt_of_lt_of_eq t.isLt (N_1 : cfg1.N = 32)
  funext j
  obtain ⟨p, q, rfl⟩ : ∃ (p : Fin 256) (q : Fin 128), j = ix2 p q := ⟨j 0, j 1, eq_ix2 j⟩
  have hp : p.val < 256 := p.isLt
  have hq : q.val < 128 := q.isLt
  rw [View.read_apply]
  have hemb : ((View.whole main_v61).slice ((win1 8).rect t)).emb (ix2 p q) = ix2 (⟨t.val * 256 + p.val, by omega⟩ : Fin 8192) q := by
    funext a; apply Fin.ext
    match a with
    | ⟨0, _⟩ => show win1_8.index t (0 : Fin 2) * 256 + 1 * p.val = t.val * 256 + p.val; omega
    | ⟨1, _⟩ => show win1_8.index t (1 : Fin 2) * 128 + 1 * q.val = q.val; omega
  rw [hemb]
  show k1_pay1 _ _ _ _ _ _ (ix2 p q) = _
  exact point_eq _ _ _ _ _ _ _ _ _ _ _ _ _ _ p q _ (fun d => blk0_apply m ρ c t p d _ rfl) (fun f b => blk1_apply m ρ c t f b)
    (fun f b => blk2_apply m ρ c t f b) (fun f b => blk3_apply m ρ c t f b) (fun f b => blk4_apply m ρ c t f b)
    (fun b => blk5_apply m ρ c t b) (fun d f => blk6_apply m ρ c t d f) (fun d f => blk7_apply m ρ c t d f)

/-- An index of the result is in point `t`'s block iff each coordinate is in the block's range on its axis. -/
theorem mem_blk (t : Fin cfg1.N) (i : S8192x128.Idx) :
    i ∈ ((cfg1.win 8).blk t).view.set ↔ ∀ a : Fin 2, win1_8.index t a * S256x128.size a ≤ (i a).val
      ∧ (i a).val < win1_8.index t a * S256x128.size a + S256x128.size a := by
  show i ∈ ((View.whole main_v61).slice (win1_8.rect t)).set ↔ _
  rw [View.set_slice_whole, Rect.mem_set_unit]
  exact Iff.rfl

/-- Every row of the result is in the block of the point its row number divided by 256 names. -/
theorem cover (i : S8192x128.Idx) : ∃ t : Fin cfg1.N, (cfg1.win 8).flush t = true ∧ i ∈ ((cfg1.win 8).blk t).view.set := by
  have hi0 : (i 0).val < 8192 := (i 0).isLt
  have hi1 : (i 1).val < 128 := (i 1).isLt
  let t : Fin cfg1.N := ⟨(i 0).val / 256, lt_of_lt_of_eq (by omega : (i 0).val / 256 < 32) (N_1 : cfg1.N = 32).symm⟩
  obtain ⟨-, -, -, -, -, -, -, -, -, -, -, -, -, -, -, e80, e81⟩ := idx_facts t
  have tv : t.val = (i 0).val / 256 := rfl
  refine ⟨t, flush1_8 t, ?_⟩
  rw [mem_blk]
  intro a
  match a with
  | ⟨0, _⟩ => show win1_8.index t (0 : Fin 2) * 256 ≤ (i 0).val ∧ (i 0).val < win1_8.index t (0 : Fin 2) * 256 + 256; omega
  | ⟨1, _⟩ => show win1_8.index t (1 : Fin 2) * 128 ≤ (i 1).val ∧ (i 1).val < win1_8.index t (1 : Fin 2) * 128 + 128; omega

/-- The result array after the second kernel: the query scores. -/
theorem final (c : Dev nD) : (dat1 (V5 m ρ) c).arrAt 8 cfg1.N = queryScores m c :=
  (dat1 (V5 m ρ) c).arrAt_eq_of_cover 8 (queryScores m c) (fun t _ => flushed_eq m ρ c t) (cover)

end Cert.KernelIdeal.QValue

end
-- ==== Proof.RefKey.lean ====
/-
  The reference's key scores are the specification's: read entry by entry, its matrix product with the rotated probe
  table, its pair magnitudes (a two-term sum of squares from zero, plus eps, under the root) against the transposed
  weights, and the broadcast bias are the three summands of the key score.
-/
import proofs.«110540_j22608707846768_1_alg».proof.Proof.Gen.ReferenceIdeal.Read
import proofs.«110540_j22608707846768_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RefKey

open Cert.ReferenceIdeal Cert.ReferenceIdeal.Read Idealize.ShloMosaic Idealize.ShloMosaic.ValueIdx

/-- The left operand of the probe product at row `n`, channel `k`. -/
theorem lidx35_eq (n : Fin 524288) (b k : Fin 128) : lidx_main_v35 (ix2 n b) k = ix2 n k :=
  funext fun a => Fin.ext (by match a with | ⟨0, _⟩ => rfl | ⟨1, _⟩ => rfl)

/-- The right operand of the probe product at channel `k`, bin `b`. -/
theorem ridx35_eq (n : Fin 524288) (b k : Fin 128) : ridx_main_v35 (ix2 n b) k = ix2 k b :=
  funext fun a => Fin.ext (by match a with | ⟨0, _⟩ => rfl | ⟨1, _⟩ => rfl)

/-- The left operand of the magnitude product at row `n`, pair `f`. -/
theorem lidx43_eq (n : Fin 524288) (b : Fin 128) (f : Fin 64) : lidx_main_v43 (ix2 n b) f = ix2 n f :=
  funext fun a => Fin.ext (by match a with | ⟨0, _⟩ => rfl | ⟨1, _⟩ => rfl)

/-- The transposed weights at pair `f`, bin `b` are the weights at bin `b`, pair `f`. -/
theorem ridx43_eq (n : Fin 524288) (b : Fin 128) (f : Fin 64) :
    idx_main_v42 (ridx_main_v43 (ix2 n b) f) = ix2 b f :=
  funext fun a => Fin.ext (by match a with | ⟨0, _⟩ => rfl | ⟨1, _⟩ => rfl)

/-- The two members of pair `f` of row `n`. -/
theorem idx38_eq (n : Fin 524288) (f : Fin 64) (c : Fin 2) : idx_main_v38 (ix2 n f) c = ix3 n f c :=
  funext fun a => Fin.ext (by match a with | ⟨0, _⟩ => rfl | ⟨1, _⟩ => rfl | ⟨2, _⟩ => rfl)

/-- Member 0 of pair `f` of row `n` is channel `2f` of that row. -/
theorem idx36_ev (n : Fin 524288) (f : Fin 64) : idx_main_v36 (ix3 n f (0 : Fin 2)) = ix2 n (Cert.Spec.ev f) :=
  funext fun a => Fin.ext (by
    have hn := n.isLt
    have hf := f.isLt
    match a with
    | ⟨0, _⟩ => show ((n.val * 64 + f.val) * 2 + 0) / 128 = n.val; omega
    | ⟨1, _⟩ => show ((n.val * 64 + f.val) * 2 + 0) % 128 = 2 * f.val; omega)

/-- Member 1 of pair `f` of row `n` is channel `2f + 1` of that row. -/
theorem idx36_od (n : Fin 524288) (f : Fin 64) : idx_main_v36 (ix3 n f (1 : Fin 2)) = ix2 n (Cert.Spec.od f) :=
  funext fun a => Fin.ext (by
    have hn := n.isLt
    have hf := f.isLt
    match a with
    | ⟨0, _⟩ => show ((n.val * 64 + f.val) * 2 + 1) / 128 = n.val; omega
    | ⟨1, _⟩ => show ((n.val * 64 + f.val) * 2 + 1) % 128 = 2 * f.val + 1; omega)

/-- The broadcast bias at row `n`, bin `b` is the bias at bin `b`. -/
theorem idx46_eq (n : Fin 524288) (b : Fin 128) : idx_main_v45 (idx_main_v46 (ix2 n b)) = ix1 b :=
  funext fun a => Fin.ext (by match a with | ⟨0, _⟩ => rfl)

/-- The root stage at row `n`, pair `f` is the smoothed length of that pair of the row: the two-term sum of squares
    starts from zero, and `eps` is added under the root. -/
theorem mag_eq (x1 : (⟨S524288x128, .f32⟩ : BufTy).Contents (Elt Ideal)) (n : Fin 524288) (f : Fin 64) :
    val_main_v41 (F := Ideal) x1 (ix2 n f) = Cert.Spec.pairMag (fun d => x1 (ix2 n d)) f := by
  unfold Cert.Spec.pairMag Cert.Spec.eps
  rw [val_main_v41_apply, val_main_v40_apply, val_main_v38_apply, val_main_v39_apply, val_main_cst_1_apply,
    val_main_cst_0_apply, Fin.sum_univ_two, idx38_eq, idx38_eq, val_main_v37_apply, val_main_v37_apply,
    val_main_v36_apply, val_main_v36_apply, idx36_ev, idx36_od]
  simp only [Ideal.hostUnary_sqrt_def, Ideal.addf_def, Ideal.mulf_def, Ideal.ofBits_def, Ideal.ofBits_zero_f32, zero_add]

theorem ref_key (x1 : (⟨S524288x128, .f32⟩ : BufTy).Contents (Elt Ideal)) (x2 : (⟨S64, .f32⟩ : BufTy).Contents (Elt Ideal))
    (x3 : (⟨S128x128, .f32⟩ : BufTy).Contents (Elt Ideal)) (x4 : (⟨S128x64, .f32⟩ : BufTy).Contents (Elt Ideal))
    (x5 : (⟨S128, .f32⟩ : BufTy).Contents (Elt Ideal)) :
    val_main_v47 (F := Ideal) x1 x2 x3 x4 x5 = Cert.Spec.GK x1 (val_main_v34 (F := Ideal) x2 x3) x4 x5 := by
  -- entry (n, b): probe product + magnitude product + bias, summand by summand
  funext i
  obtain ⟨n, b, rfl⟩ : ∃ (n : Fin 524288) (b : Fin 128), i = ix2 n b := ⟨i 0, i 1, eq_ix2 i⟩
  unfold Cert.Spec.GK Cert.Spec.keyLogit
  rw [val_main_v47_apply, val_main_v44_apply, val_main_v35_apply, val_main_v43_apply, val_main_v46_apply,
    val_main_v45_apply, idx46_eq]
  simp only [Ideal.addf_def]
  refine congrArg₂ (· + ·) (congrArg₂ (· + ·) ?_ ?_) rfl
  · exact Finset.sum_congr rfl fun k _ => by rw [lidx35_eq, ridx35_eq]
  · refine Finset.sum_congr rfl fun f _ => ?_
    rw [lidx43_eq, val_main_v42_apply, ridx43_eq, mag_eq]

end Cert.ReferenceIdeal.RefKey

end
-- ==== Proof.RefQuery.lean ====
/-
  The reference's query scores are the specification's: read entry by entry, the unit-length row, the two-term sums of
  squared differences from the rotated probe pairs (the pairs joined along a last axis of length two), the roots, the
  weighted sums over the pairs, the matrix product of the pair magnitudes with the transposed weights, and the bias.
-/
import proofs.«110540_j22608707846768_1_alg».proof.Proof.Gen.ReferenceIdeal.Read
import proofs.«110540_j22608707846768_1_alg».proof.Proof.Spec
import Idealize.ShloMosaic.Lib.Pipeline.Value
import Idealize.ShloMosaic.Lib.ValueIdx
import Idealize.ShloMosaic.PureOps.Ideal
import Idealize.ShloMosaic.PureOps.Ideal.Laws
import Mathlib.Algebra.BigOperators.Fin

noncomputable section

namespace Cert.ReferenceIdeal.RefQuery

open Cert.ReferenceIdeal Cert.ReferenceIdeal.Gen Cert.ReferenceIdeal.Read Idealize.ShloMosaic Idealize.ShloMosaic.ValueIdx

/-! ## The joined probe pairs

The two halves of the rotated probes, each given a last axis of length one, are joined along that axis: last
coordinate 0 reads the first half, last coordinate 1 the second. -/

/-- At last coordinate 0 the joined array is the first half. -/
theorem v32_fst (x2 : (⟨S64, .f32⟩ : BufTy).Contents (Elt Ideal)) (x3 : (⟨S128x128, .f32⟩ : BufTy).Contents (Elt Ideal))
    (b : Fin 128) (f : Fin 64) :
    val_main_v32 (F := Ideal) x2 x3 (ix3 b f (0 : Fin 2)) = val_main_v18 (F := Ideal) x2 x3 (ix2 b f) := by
  unfold val_main_v32
  rw [concatenate_pair_apply_left (2 : Fin S128x64x2.rank) _ _ concatenates_S128x64x1_S128x64x1_S128x64x2_d2
        (ix3 b f (0 : Fin 2)) rfl (ix3 b f (0 : Fin 1))
        (fun a => by match a with | ⟨0, _⟩ => rfl | ⟨1, _⟩ => rfl | ⟨2, _⟩ => rfl),
      val_main_v30_apply]
  exact congrArg _ (funext fun a => Fin.ext (by match a with | ⟨0, _⟩ => rfl | ⟨1, _⟩ => rfl))

/-- At last coordinate 1 the joined array is the second half. -/
theorem v32_snd (x2 : (⟨S64, .f32⟩ : BufTy).Contents (Elt Ideal)) (x3 : (⟨S128x128, .f32⟩ : BufTy).Contents (Elt Ideal))
    (b : Fin 128) (f : Fin 64) :
    val_main_v32 (F := Ideal) x2 x3 (ix3 b f (1 : Fin 2)) = val_main_v29 (F := Ideal) x2 x3 (ix2 b f) := by
  unfold val_main_v32
  rw [concatenate_pair_apply_right (2 : Fin S128x64x2.rank) _ _ concatenates_S128x64x1_S128x64x1_S128x64x2_d2
        (ix3 b f (1 : Fin 2)) rfl rfl (ix3 b f (0 : Fin 1))
        (fun a ha => by
          match a, ha with
          | ⟨0, _⟩, _ => rfl
          | ⟨1, _⟩, _ => rfl
          | ⟨2, _⟩, ha => exact absurd rfl ha)
        rfl,
      val_main_v31_apply]
  exact congrArg _ (funext fun a => Fin.ext (by match a with | ⟨0, _⟩ => rfl | ⟨1, _⟩ => rfl))

section Query

variable (x0 : (⟨S8192x128, .f32⟩ : BufTy).Contents (Elt Ideal)) (x2 : (⟨S64, .f32⟩ : BufTy).Contents (Elt Ideal))
  (x3 : (⟨S128x128, .f32⟩ : BufTy).Contents (Elt Ideal)) (x6 x7 : (⟨S128x64, .f32⟩ : BufTy).Contents (Elt Ideal))
  (x8 : (⟨S128, .f32⟩ : BufTy).Contents (Elt Ideal))

/-- The query row divided by its length plus the small constant: the zero the row's sum of squares starts from
    adds nothing. -/
theorem v52_at (n : Fin 8192) (d : Fin 128) :
    val_main_v52 (F := Ideal) x0 (ix2 n d) = Cert.Spec.unitRow (fun d' => x0 (ix2 n d')) d := by
  have e : ∀ k : Fin 128, idx_main_call1_v1 (idx_main_call1_v2 (idx_main_v51 (ix2 n d))) k = ix2 n k := fun k =>
    funext fun a => Fin.ext (by match a with | ⟨0, _⟩ => rfl | ⟨1, _⟩ => rfl)
  unfold Cert.Spec.unitRow Cert.Spec.eps
  rw [val_main_v52_apply, val_main_v51_apply, val_main_v50_apply, val_main_v48_apply, val_main_call1_v2_apply,
    val_main_call1_v1_apply, val_main_v49_apply, val_main_cst_2_apply, val_main_call1_cst_apply]
  simp only [val_main_call1_v0_apply, e, Ideal.hostDivf_def, Ideal.addf_def, Ideal.mulf_def,
    Ideal.hostUnary_sqrt_def, Ideal.ofBits_def, Ideal.ofBits_zero_f32, zero_add]

/-- The reshape of the scaled row into pairs: last coordinate 0 is the pair's first channel. -/
theorem v53_ev (n : Fin 8192) (f : Fin 64) :
    val_main_v53 (F := Ideal) x0 (ix3 n f (0 : Fin 2))
      = Cert.Spec.unitRow (fun d' => x0 (ix2 n d')) (Cert.Spec.ev f) := by
  have e : idx_main_v53 (ix3 n f (0 : Fin 2)) = ix2 n (Cert.Spec.ev f) :=
    funext fun a => Fin.ext (by
      have hn := n.isLt; have hf := f.isLt
      match a with
      | ⟨0, _⟩ => show ((n.val * 64 + f.val) * 2 + 0) / 128 = n.val; omega
      | ⟨1, _⟩ => show ((n.val * 64 + f.val) * 2 + 0) % 128 = 2 * f.val; omega)
  rw [val_main_v53_apply, e, v52_at]

/-- Last coordinate 1 is the pair's second channel. -/
theorem v53_od (n : Fin 8192) (f : Fin 64) :
    val_main_v53 (F := Ideal) x0 (ix3 n f (1 : Fin 2))
      = Cert.Spec.unitRow (fun d' => x0 (ix2 n d')) (Cert.Spec.od f) := by
  have e : idx_main_v53 (ix3 n f (1 : Fin 2)) = ix2 n (Cert.Spec.od f) :=
    funext fun a => Fin.ext (by
      have hn := n.isLt; have hf := f.isLt
      match a with
      | ⟨0, _⟩ => show ((n.val * 64 + f.val) * 2 + 1) / 128 = n.val; omega
      | ⟨1, _⟩ => show ((n.val * 64 + f.val) * 2 + 1) % 128 = 2 * f.val + 1; omega)
  rw [val_main_v53_apply, e, v52_at]

/-- The root of the two squared differences between a probe pair and the scaled row's pair, plus the small constant. -/
theorem v63_at (n : Fin 8192) (b : Fin 128) (f : Fin 64) :
    val_main_v63 (F := Ideal) x0 x2 x3 (ix3 n b f)
      = Cert.Spec.pairDist (val_main_v18 (F := Ideal) x2 x3 (ix2 b f)) (val_main_v29 (F := Ideal) x2 x3 (ix2 b f))
          (Cert.Spec.unitRow fun d' => x0 (ix2 n d')) f := by
  have ep : ∀ c : Fin 2, idx_main_v54 (idx_main_v56 (idx_main_v60 (ix3 n b f) c)) = ix3 b f c := fun c =>
    funext fun a => Fin.ext (by match a with | ⟨0, _⟩ => rfl | ⟨1, _⟩ => rfl | ⟨2, _⟩ => rfl)
  have eq : ∀ c : Fin 2, idx_main_v55 (idx_main_v57 (idx_main_v60 (ix3 n b f) c)) = ix3 n f c := fun c =>
    funext fun a => Fin.ext (by match a with | ⟨0, _⟩ => rfl | ⟨1, _⟩ => rfl | ⟨2, _⟩ => rfl)
  unfold Cert.Spec.pairDist Cert.Spec.eps
  rw [val_main_v63_apply, val_main_v62_apply, val_main_v60_apply, val_main_v61_apply, val_main_cst_4_apply,
    val_main_cst_3_apply, Fin.sum_univ_two]
  simp only [val_main_v59_apply, val_main_v58_apply, val_main_v56_apply, val_main_v54_apply, val_main_v57_apply,
    val_main_v55_apply, ep, eq, v32_fst, v32_snd, v53_ev, v53_od, Ideal.addf_def, Ideal.subf_def, Ideal.mulf_def,
    Ideal.hostUnary_sqrt_def, Ideal.ofBits_def, Ideal.ofBits_zero_f32, zero_add]

/-- The root of the two squares of the scaled row's pair, plus the small constant. -/
theorem v68_at (n : Fin 8192) (f : Fin 64) :
    val_main_v68 (F := Ideal) x0 (ix2 n f) = Cert.Spec.pairMag (Cert.Spec.unitRow fun d' => x0 (ix2 n d')) f := by
  have e : ∀ c : Fin 2, idx_main_v65 (ix2 n f) c = ix3 n f c := fun c =>
    funext fun a => Fin.ext (by match a with | ⟨0, _⟩ => rfl | ⟨1, _⟩ => rfl | ⟨2, _⟩ => rfl)
  unfold Cert.Spec.pairMag Cert.Spec.eps
  rw [val_main_v68_apply, val_main_v67_apply, val_main_v65_apply, val_main_v66_apply, val_main_cst_6_apply,
    val_main_cst_5_apply, Fin.sum_univ_two]
  simp only [val_main_v64_apply, e, v53_ev, v53_od, Ideal.addf_def, Ideal.mulf_def, Ideal.hostUnary_sqrt_def,
    Ideal.ofBits_def, Ideal.ofBits_zero_f32, zero_add]

/-- The distances weighted and summed over the pairs: the zero the sum starts from adds nothing. -/
theorem v74_at (n : Fin 8192) (b : Fin 128) :
    val_main_v74 (F := Ideal) x0 x2 x3 x6 (ix2 n b)
      = ∑ f : Fin 64, Cert.Spec.pairDist (val_main_v18 (F := Ideal) x2 x3 (ix2 b f))
          (val_main_v29 (F := Ideal) x2 x3 (ix2 b f)) (Cert.Spec.unitRow fun d' => x0 (ix2 n d')) f
            * val_main_v70 (F := Ideal) x6 (ix2 b f) := by
  rw [val_main_v74_apply, val_main_cst_7_apply, Ideal.ofBits_def, Ideal.ofBits_zero_f32, zero_add]
  refine Finset.sum_congr rfl fun k _ => ?_
  have e1 : idx_main_v74 (ix2 n b) k = ix3 n b k :=
    funext fun a => Fin.ext (by match a with | ⟨0, _⟩ => rfl | ⟨1, _⟩ => rfl | ⟨2, _⟩ => rfl)
  have e2 : idx_main_v71 (idx_main_v72 (ix3 n b k)) = ix2 b k :=
    funext fun a => Fin.ext (by match a with | ⟨0, _⟩ => rfl | ⟨1, _⟩ => rfl)
  rw [val_main_v73_apply, e1, v63_at, val_main_v72_apply, val_main_v71_apply, e2, Ideal.mulf_def]

/-- The pair magnitudes contracted with the transposed weights. -/
theorem v76_at (n : Fin 8192) (b : Fin 128) :
    val_main_v76 (F := Ideal) x0 x7 (ix2 n b)
      = ∑ f : Fin 64, Cert.Spec.pairMag (Cert.Spec.unitRow fun d' => x0 (ix2 n d')) f * x7 (ix2 b f) := by
  rw [val_main_v76_apply]
  refine Finset.sum_congr rfl fun k _ => ?_
  have e1 : lidx_main_v76 (ix2 n b) k = ix2 n k :=
    funext fun a => Fin.ext (by match a with | ⟨0, _⟩ => rfl | ⟨1, _⟩ => rfl)
  have e2 : idx_main_v75 (ridx_main_v76 (ix2 n b) k) = ix2 b k :=
    funext fun a => Fin.ext (by match a with | ⟨0, _⟩ => rfl | ⟨1, _⟩ => rfl)
  rw [val_main_v75_apply, e1, e2, v68_at]

end Query

/-- The reference's query scores, entry by entry: the weighted distance sum, plus the magnitude product, plus the
    bias of the bin. -/
theorem ref_query (x0 : (⟨S8192x128, .f32⟩ : BufTy).Contents (Elt Ideal)) (x2 : (⟨S64, .f32⟩ : BufTy).Contents (Elt Ideal))
    (x3 : (⟨S128x128, .f32⟩ : BufTy).Contents (Elt Ideal)) (x6 x7 : (⟨S128x64, .f32⟩ : BufTy).Contents (Elt Ideal))
    (x8 : (⟨S128, .f32⟩ : BufTy).Contents (Elt Ideal)) :
    val_main_v80 (F := Ideal) x0 x2 x3 x6 x7 x8
      = Cert.Spec.GQ x0 (val_main_v18 (F := Ideal) x2 x3) (val_main_v29 (F := Ideal) x2 x3) (val_main_v70 (F := Ideal) x6) x7 x8 := by
  funext i
  obtain ⟨n, b, rfl⟩ : ∃ (n : Fin 8192) (b : Fin 128), i = ix2 n b := ⟨i 0, i 1, eq_ix2 i⟩
  have e : idx_main_v78 (idx_main_v79 (ix2 n b)) = ix1 b :=
    funext fun a => Fin.ext (by match a with | ⟨0, _⟩ => rfl)
  rw [val_main_v80_apply, val_main_v77_apply, val_main_v79_apply, val_main_v78_apply, e, v74_at, v76_at,
    Ideal.addf_def, Ideal.addf_def]
  rfl

end Cert.ReferenceIdeal.RefQuery

end
-- ==== Proof.lean ====
/-
  The certificate of the probe-routing scores: a key table K [524288, 128] and a query table Q [8192, 128] are scored
  against 128 bins. Both programs first make, by the same host operations, the rotated probe table (rows of `probes`
  scaled to unit length, their 64 channel pairs rotated by the reference angles) and the negated softplus of the raw
  query weights. Then

    key score (n, b)   = sum_d K(n,d) * P(d,b) + sum_f sqrt (K(n,2f)^2 + K(n,2f+1)^2 + eps) * Wk(b,f) + bias_k(b),
    query score (n, b) = sum_f sqrt ((R0(b,f) - q(n,2f))^2 + (R1(b,f) - q(n,2f+1))^2 + eps) * E(b,f)
                         + sum_f sqrt (q(n,2f)^2 + q(n,2f+1)^2 + eps) * Wq(b,f) + bias_q(b),   q = Q / (|Q| + eps) by rows

  (Spec.lean). The kernels compute them a block of rows at a time; they split a row into its even and odd channels
  by contracting it with two 0/1 tables, which on the extended reals picks the channel exactly (x * 0 = 0 for every x,
  so no finiteness is used), and they contract against transposed tables; the reference reshapes rows to pairs and
  sums two squares from zero. At the ideal values a matrix product into a zero accumulator, the host's product and
  every reduction are plain finite sums, and a change of float format is the identity, so both sides are the
  formulas above, entry by entry:
    KBody / QBody      what one grid point's body stores, at an index;
    HostValues         what the tables hold when the kernels are entered;
    KValue / QValue    from the blocks to the whole arrays (each result is tiled by its row blocks);
    RunValues          the kernel program's run, with the two result arrays named;
    RefKey / RefQuery  the reference's two results, read stage by stage.
  The three frames are the generated ones; nothing was idealized by rewriting, so `preserves` is trivial.
-/
import proofs.«110540_j22608707846768_1_alg».proof.Defs
import proofs.«110540_j22608707846768_1_alg».proof.Proof.Gen.Kernel
import proofs.«110540_j22608707846768_1_alg».proof.Proof.Gen.Kernel.Frame
import proofs.«110540_j22608707846768_1_alg».proof.Proof.Gen.KernelIdeal
import proofs.«110540_j22608707846768_1_alg».proof.Proof.Gen.KernelIdeal.Frame
import proofs.«110540_j22608707846768_1_alg».proof.Proof.Gen.ReferenceIdeal
import proofs.«110540_j22608707846768_1_alg».proof.Proof.Gen.Pre_finite_inputs
import proofs.«110540_j22608707846768_1_alg».proof.Proof.Gen.ReferenceIdeal.Run
import proofs.«110540_j22608707846768_1_alg».proof.Proof.Gen.ReferenceIdeal.Read
import proofs.«110540_j22608707846768_1_alg».proof.Proof.RunValues
import proofs.«110540_j22608707846768_1_alg».proof.Proof.KValue
import proofs.«110540_j22608707846768_1_alg».proof.Proof.QValue
import proofs.«110540_j22608707846768_1_alg».proof.Proof.RefKey
import proofs.«110540_j22608707846768_1_alg».proof.Proof.RefQuery
import Idealize.ShloMosaic.Adequacy
import Idealize.ShloMosaic.Init

noncomputable section

namespace Cert.Proof

open Idealize.ShloMosaic Idealize.SL.Sem

/-- The word-level kernel program runs and leaves its arguments. -/
theorem frame_kernel : Cert.frame_Kernel := fun m ρ _ => Cert.Kernel.Gen.frame m ρ

/-- The idealized kernel program runs and leaves its arguments. -/
theorem frame_kernelIdeal : Cert.frame_KernelIdeal := fun m ρ _ => Cert.KernelIdeal.Gen.frame m ρ

/-- The reference runs and leaves its arguments: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the specification's key scores and query scores of the (agreeing) arguments. -/
theorem algebraic : Cert.algebraic_KernelIdeal_ReferenceIdeal := by
  intro m ρ m' ρ' _ hagree
  refine ⟨fun c => Cert.KernelIdeal.KValue.keyScores m c, fun c => Cert.KernelIdeal.QValue.queryScores m c, ?_, ?_⟩
  · refine (θ_run Cert.KernelIdeal.defs _ _).mono (fun r h c => ?_) (Cert.KernelIdeal.RunValues.run_values (F := Ideal) m ρ)
    obtain ⟨h60, h61, hargs⟩ := h c
    refine ⟨h60.trans ?_, h61.trans ?_, hargs⟩
    · exact (Cert.KernelIdeal.Gen.W6_of_ne m ρ c Cert.KernelIdeal.main_v60 (by decide)).trans
        ((Cert.KernelIdeal.Gen.W5_arr m ρ c 6).trans (Cert.KernelIdeal.KValue.final m ρ c))
    · exact (Cert.KernelIdeal.Gen.W6_arr m ρ c 8).trans (Cert.KernelIdeal.QValue.final m ρ c)
  · refine (θ_run Cert.ReferenceIdeal.defs _ _).mono (fun r h c => ?_) (Cert.ReferenceIdeal.Value.run (F := Ideal) m' ρ')
    obtain ⟨h47, h80, hargs⟩ := h c
    obtain ⟨a0, a1, a2, a3, a4, a5, a6, a7, a8⟩ := hagree c
    refine ⟨h47.trans ?_, h80.trans ?_, hargs⟩
    · rw [Cert.ReferenceIdeal.Read.val_main_v47_eq, Cert.ReferenceIdeal.RefKey.ref_key, a1, a2, a3, a4, a5]
    · rw [Cert.ReferenceIdeal.Read.val_main_v80_eq, Cert.ReferenceIdeal.RefQuery.ref_query, a0, a2, a3, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
